-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S2x1x1x4096 : Shape := ⟨4, ![2, 1, 1, 4096]⟩
abbrev S_ : Shape := ⟨0, ![]⟩
abbrev S2x8x4096 : Shape := ⟨3, ![2, 8, 4096]⟩
abbrev S2x8x4096x1 : Shape := ⟨4, ![2, 8, 4096, 1]⟩
abbrev S2x8x4096x4096 : Shape := ⟨4, ![2, 8, 4096, 4096]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel
  bcast_S_S2x1x1x4096 : S_.BroadcastsInDim S2x1x1x4096 (![] : Fin 0 → Fin S2x1x1x4096.rank)
  reducesTo_S2x1x1x4096_S_d0_1_2_3 : S2x1x1x4096.ReducesTo [0, 1, 2, 3] S_
  reducesTo_S2x8x4096x64_S2x8x4096_d3 : S2x8x4096x64.ReducesTo [3] S2x8x4096
  bcast_S2x8x4096_S2x8x4096x1_0_1_2 : S2x8x4096.BroadcastsInDim S2x8x4096x1 (![0, 1, 2] : Fin 3 → Fin S2x8x4096x1.rank)
  bcast_S_S2x8x4096x1 : S_.BroadcastsInDim S2x8x4096x1 (![] : Fin 0 → Fin S2x8x4096x1.rank)
  bcast_S2x8x4096x1_S2x8x4096x64_0_1_2_3 : S2x8x4096x1.BroadcastsInDim S2x8x4096x64 (![0, 1, 2, 3] : Fin 4 → Fin S2x8x4096x64.rank)
  bcast_S2x1x1x4096_S2x8x4096x4096_0_1_2_3 : S2x1x1x4096.BroadcastsInDim S2x8x4096x4096 (![0, 1, 2, 3] : Fin 4 → Fin S2x8x4096x4096.rank)
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  reducesTo_S2x8x4096x1_S_d0_1_2_3 : S2x8x4096x1.ReducesTo [0, 1, 2, 3] S_
  dot_S2x8x4096x64_S2x8x4096x64_S2x8x4096x4096_3_3_2_2_01_01_wf : DotDims.WF S2x8x4096x64 S2x8x4096x64 S2x8x4096x4096 [3] [3] [2] [2] [0, 1] [0, 1]

variable [Facts]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def fn_part3 {F : FTy → Type} [FloatOps F] (main_v20 : IVec S_ 1) (main_v51 : IVec S_ 1) : IVec S_ 1 :=
  let main_v52 : IVec S_ 1 := andi main_v20 main_v51
  main_v52

def fn_part2 {F : FTy → Type} [FloatOps F] (main_arg1 : FVec F S2x8x4096x64 .f32) (main_arg3 : IVec S2x1x1x4096 32) (main_v20 : IVec S_ 1) (main_v28 : FVec F S2x8x4096x64 .f32) (main_v34 : FVec F S2x8x4096x1 .f32) : IVec S_ 1 :=
  let main_v35 : FVec F S2x8x4096x64 .f32 := broadcastInDim S2x8x4096x64 ![0, 1, 2, 3] bcast_S2x8x4096x1_S2x8x4096x64_0_1_2_3 main_v34
  let main_v36 : FVec F S2x8x4096x64 .f32 := Host.divf main_arg1 main_v35
  let main_v37 : FVec F S2x8x4096x4096 .f32 := (fun l r => Host.dotGeneral dot_S2x8x4096x64_S2x8x4096x64_S2x8x4096x4096_3_3_2_2_01_01 none l r) main_v28 main_v36
  let main_c_11 : IVec S_ 32 := constantI S_ 32 0#32
  let main_v38 : IVec S2x1x1x4096 32 := broadcastInDim S2x1x1x4096 ![] bcast_S_S2x1x1x4096 main_c_11
  let main_v39 : IVec S2x1x1x4096 1 := cmpi .eq main_arg3 main_v38
  let main_v40 : IVec S2x8x4096x4096 1 := broadcastInDim S2x8x4096x4096 ![0, 1, 2, 3] bcast_S2x1x1x4096_S2x8x4096x4096_0_1_2_3 main_v39
  let main_cst_12 : FVec F S_ .f32 := constant S_ .f32 0xBF800000#32
  let main_v41 : FVec F S2x8x4096x4096 .f32 := broadcastInDim S2x8x4096x4096 ![] bcast_S_S2x8x4096x4096 main_cst_12
  let main_v42 : FVec F S2x8x4096x4096 .f32 := select main_v40 main_v41 main_v37
  let main_cst_13 : FVec F S_ .f32 := constant S_ .f32 0x3F800000#32
  let main_v43 : FVec F S2x8x4096x4096 .f32 := broadcastInDim S2x8x4096x4096 ![] bcast_S_S2x8x4096x4096 main_cst_13
  let main_v44 : FVec F S2x8x4096x4096 .f32 := addf main_v42 main_v43
  let main_cst_14 : FVec F S_ .f32 := constant S_ .f32 0x3F000000#32
  let main_v45 : FVec F S2x8x4096x4096 .f32 := broadcastInDim S2x8x4096x4096 ![] bcast_S_S2x8x4096x4096 main_cst_14
  let main_v46 : FVec F S2x8x4096x4096 .f32 := mulf main_v44 main_v45
  let main_cst_15 : FVec F S_ .f32 := constant S_ .f32 0x00000000#32
  let main_v47 : FVec F S2x8x4096 .f32 := (fun x v => Host.reduceAdd x v reducesTo_S2x8x4096x4096_S2x8x4096_d3 h_S_) main_v46 main_cst_15
  let main_v48 : FVec F S2x8x4096x1 .f32 := broadcastInDim S2x8x4096x1 ![0, 1, 2] bcast_S2x8x4096_S2x8x4096x1_0_1_2 main_v47
  let main_cst_16 : FVec F S_ .f32 := constant S_ .f32 0x00000000#32
  let main_v49 : FVec F S2x8x4096x1 .f32 := broadcastInDim S2x8x4096x1 ![] bcast_S_S2x8x4096x1 main_cst_16
  let main_v50 : IVec S2x8x4096x1 1 := cmpf .une main_v48 main_v49
  let main_c_17 : IVec S_ 1 := constantI S_ 1 1#1
  let main_v51 : IVec S_ 1 := (fun x v => Host.reduce IntOp.andi x v reducesTo_S2x8x4096x1_S_d0_1_2_3 h_S_) main_v50 main_c_17
  fn_part3 (F := F) main_v20 main_v51

def fn_part1 {F : FTy → Type} [FloatOps F] (main_arg0 : FVec F S2x8x4096x64 .f32) (main_arg1 : FVec F S2x8x4096x64 .f32) (main_arg3 : IVec S2x1x1x4096 32) (main_v13 : IVec S_ 1) (main_v15 : IVec S2x1x1x4096 1) (main_c_5 : IVec S_ 32) : IVec S_ 1 :=
  let main_v16 : IVec S2x1x1x4096 32 := broadcastInDim S2x1x1x4096 ![] bcast_S_S2x1x1x4096 main_c_5
  let main_v17 : IVec S2x1x1x4096 1 := cmpi .eq main_arg3 main_v16
  let main_v18 : IVec S2x1x1x4096 1 := ori main_v15 main_v17
  let main_c_6 : IVec S_ 1 := constantI S_ 1 1#1
  let main_v19 : IVec S_ 1 := (fun x v => Host.reduce IntOp.andi x v reducesTo_S2x1x1x4096_S_d0_1_2_3 h_S_) main_v18 main_c_6
  let main_v20 : IVec S_ 1 := andi main_v13 main_v19
  let main_v21 : FVec F S2x8x4096x64 .f32 := mulf main_arg0 main_arg0
  let main_cst_7 : FVec F S_ .f32 := constant S_ .f32 0x00000000#32
  let main_v22 : FVec F S2x8x4096 .f32 := (fun x v => Host.reduceAdd x v reducesTo_S2x8x4096x64_S2x8x4096_d3 h_S_) main_v21 main_cst_7
  let main_v23 : FVec F S2x8x4096x1 .f32 := broadcastInDim S2x8x4096x1 ![0, 1, 2] bcast_S2x8x4096_S2x8x4096x1_0_1_2 main_v22
  let main_v24 : FVec F S2x8x4096x1 .f32 := Host.sqrt main_v23
  let main_cst_8 : FVec F S_ .f32 := constant S_ .f32 0x2B8CBCCC#32
  let main_v25 : FVec F S2x8x4096x1 .f32 := broadcastInDim S2x8x4096x1 ![] bcast_S_S2x8x4096x1 main_cst_8
  let main_v26 : FVec F S2x8x4096x1 .f32 := maximumf main_v24 main_v25
  let main_v27 : FVec F S2x8x4096x64 .f32 := broadcastInDim S2x8x4096x64 ![0, 1, 2, 3] bcast_S2x8x4096x1_S2x8x4096x64_0_1_2_3 main_v26
  let main_v28 : FVec F S2x8x4096x64 .f32 := Host.divf main_arg0 main_v27
  let main_v29 : FVec F S2x8x4096x64 .f32 := mulf main_arg1 main_arg1
  let main_cst_9 : FVec F S_ .f32 := constant S_ .f32 0x00000000#32
  let main_v30 : FVec F S2x8x4096 .f32 := (fun x v => Host.reduceAdd x v reducesTo_S2x8x4096x64_S2x8x4096_d3 h_S_) main_v29 main_cst_9
  let main_v31 : FVec F S2x8x4096x1 .f32 := broadcastInDim S2x8x4096x1 ![0, 1, 2] bcast_S2x8x4096_S2x8x4096x1_0_1_2 main_v30
  let main_v32 : FVec F S2x8x4096x1 .f32 := Host.sqrt main_v31
  let main_cst_10 : FVec F S_ .f32 := constant S_ .f32 0x2B8CBCCC#32
  let main_v33 : FVec F S2x8x4096x1 .f32 := broadcastInDim S2x8x4096x1 ![] bcast_S_S2x8x4096x1 main_cst_10
  let main_v34 : FVec F S2x8x4096x1 .f32 := maximumf main_v32 main_v33
  fn_part2 (F := F) main_arg1 main_arg3 main_v20 main_v28 main_v34

def fn {F : FTy → Type} [FloatOps F] (main_arg0 : FVec F S2x8x4096x64 .f32) (main_arg1 : FVec F S2x8x4096x64 .f32) (main_arg2 : FVec F S2x8x4096x64 .f32) (main_arg3 : IVec S2x1x1x4096 32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  let main_c_4 : IVec S_ 32 := constantI S_ 32 0#32
  let main_v14 : IVec S2x1x1x4096 32 := broadcastInDim S2x1x1x4096 ![] bcast_S_S2x1x1x4096 main_c_4
  let main_v15 : IVec S2x1x1x4096 1 := cmpi .eq main_arg3 main_v14
  let main_c_5 : IVec S_ 32 := constantI S_ 32 1#32
  fn_part1 (F := F) main_arg0 main_arg1 main_arg3 main_v13 main_v15 main_c_5
-- ==== Kernel.lean ====
abbrev S2x8x4096x64 : Shape := ⟨4, ![2, 8, 4096, 64]⟩
abbrev S2x1x1x4096 : Shape := ⟨4, ![2, 1, 1, 4096]⟩
abbrev S16x4096x64 : Shape := ⟨3, ![16, 4096, 64]⟩
abbrev S2x4096 : Shape := ⟨2, ![2, 4096]⟩
abbrev S2x1x4096 : Shape := ⟨3, ![2, 1, 4096]⟩
abbrev S2x8x4096 : Shape := ⟨3, ![2, 8, 4096]⟩
abbrev S16x4096x1 : Shape := ⟨3, ![16, 4096, 1]⟩
abbrev S1x4096x64 : Shape := ⟨3, ![1, 4096, 64]⟩
abbrev S1x4096x1 : Shape := ⟨3, ![1, 4096, 1]⟩
abbrev S64x64 : Shape := ⟨2, ![64, 64]⟩
abbrev S1x64 : Shape := ⟨2, ![1, 64]⟩
abbrev S1x1 : Shape := ⟨2, ![1, 1]⟩
abbrev S1x1024x64 : Shape := ⟨3, ![1, 1024, 64]⟩
abbrev S1024x64 : Shape := ⟨2, ![1024, 64]⟩
abbrev S1x1024x1 : Shape := ⟨3, ![1, 1024, 1]⟩
abbrev S1024x1 : Shape := ⟨2, ![1024, 1]⟩
abbrev S1024 : Shape := ⟨1, ![1024]⟩
abbrev S64 : Shape := ⟨1, ![64]⟩
abbrev S1 : Shape := ⟨1, ![1]⟩

abbrev nBuf : Space → Nat
  | .hbm => 14
  | .vmem => 14
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x1x1x4096, .i32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S2x4096, .i32⟩
  | .hbm, ⟨8, _⟩ => ⟨S2x4096, .f32⟩
  | .hbm, ⟨9, _⟩ => ⟨S2x1x4096, .f32⟩
  | .hbm, ⟨10, _⟩ => ⟨S2x8x4096, .f32⟩
  | .hbm, ⟨11, _⟩ => ⟨S16x4096x1, .f32⟩
  | .hbm, ⟨12, _⟩ => ⟨S16x4096x64, .f32⟩
  | .hbm, ⟨13, _⟩ => ⟨S2x8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x1, .f32⟩
  | .local _ .vmem, ⟨7, _⟩ => ⟨S1x4096x1, .f32⟩
  | .local _ .vmem, ⟨8, _⟩ => ⟨S1x4096x64, .f32⟩
  | .local _ .vmem, ⟨9, _⟩ => ⟨S1x4096x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32_24 : BitVec 32 := 0#32
  let c0_i32 : BitVec 32 := 0#32
  let c1_i32 : BitVec 32 := 1#32
  let arg10 : BitVec 32 := Scf.iv c0_i32 c1_i32 k0_t1
  let c1_i32_23 : BitVec 32 := 1#32
  let v23 : BitVec 32 := Scalar.muli arg10 c1_i32_23
  let v24 : BitVec 32 := Scalar.addi c0_i32_24 v23
  let c1024_i32 : BitVec 32 := 1024#32
  let v25 : BitVec 32 := Scalar.muli v24 c1024_i32
  v25
def k0_off1 (k0_t1 : Fin k0_t1_loop.trips) : Fin 3 → Nat :=
  let c0_25 : Index := 0#32
  let c0_i32_24 : BitVec 32 := 0#32
  let c0_i32 : BitVec 32 := 0#32
  let c1_i32 : BitVec 32 := 1#32
  let arg10 : BitVec 32 := Scf.iv c0_i32 c1_i32 k0_t1
  let c1_i32_23 : BitVec 32 := 1#32
  let v23 : BitVec 32 := Scalar.muli arg10 c1_i32_23
  let v24 : BitVec 32 := Scalar.addi c0_i32_24 v23
  let c1024_i32 : BitVec 32 := 1024#32
  let v25 : BitVec 32 := Scalar.muli v24 c1024_i32
  let v26 : BitVec 32 := v25
  let v27 : Index := Scalar.indexCast v26
  let c0_26 : Index := 0#32
  ![0, v27.toNat, 0]
def k0_off2 (k0_t1 : Fin k0_t1_loop.trips) : Fin 3 → Nat :=
  let c0_29 : Index := 0#32
  let c0_i32_24 : BitVec 32 := 0#32
  let c0_i32 : BitVec 32 := 0#32
  let c1_i32 : BitVec 32 := 1#32
  let arg10 : BitVec 32 := Scf.iv c0_i32 c1_i32 k0_t1
  let c1_i32_23 : BitVec 32 := 1#32
  let v23 : BitVec 32 := Scalar.muli arg10 c1_i32_23
  let v24 : BitVec 32 := Scalar.addi c0_i32_24 v23
  let c1024_i32 : BitVec 32 := 1024#32
  let v25 : BitVec 32 := Scalar.muli v24 c1024_i32
  let v26 : BitVec 32 := v25
  let v33 : Index := Scalar.indexCast v26
  let c0_30 : Index := 0#32
  ![0, v33.toNat, 0]
@[reducible] def k0_t2_loop : Scf.Loop 32 :=
  let c0_i32_19 : BitVec 32 := 0#32
  let c4_i32_20 : BitVec 32 := 4#32
  let v22 : BitVec 32 := Scalar.addi c0_i32_19 c4_i32_20
  let c1_i32_21 : BitVec 32 := 1#32
  ⟨c0_i32_19, v22, c1_i32_21⟩
def k0_mult2 (k0_t2 : Fin k0_t2_loop.trips) : BitVec 32 :=
  let c0_i32_24 : BitVec 32 := 0#32
  let c0_i32_19 : BitVec 32 := 0#32
  let c1_i32_21 : BitVec 32 := 1#32
  let arg10 : BitVec 32 := Scf.iv c0_i32_19 c1_i32_21 k0_t2
  let c1_i32_23 : BitVec 32 := 1#32
  let v23 : BitVec 32 := Scalar.muli arg10 c1_i32_23
  let v24 : BitVec 32 := Scalar.addi c0_i32_24 v23
  let c1024_i32 : BitVec 32 := 1024#32
  let v25 : BitVec 32 := Scalar.muli v24 c1024_i32
  v25
def k0_off3 (k0_t2 : Fin k0_t2_loop.trips) : Fin 3 → Nat :=
  let c0_25 : Index := 0#32
  let c0_i32_24 : BitVec 32 := 0#32
  let c0_i32_19 : BitVec 32 := 0#32
  let c1_i32_21 : BitVec 32 := 1#32
  let arg10 : BitVec 32 := Scf.iv c0_i32_19 c1_i32_21 k0_t2
  let c1_i32_23 : BitVec 32 := 1#32
  let v23 : BitVec 32 := Scalar.muli arg10 c1_i32_23
  let v24 : BitVec 32 := Scalar.addi c0_i32_24 v23
  let c1024_i32 : BitVec 32 := 1024#32
  let v25 : BitVec 32 := Scalar.muli v24 c1024_i32
  let v26 : BitVec 32 := v25
  let v27 : Index := Scalar.indexCast v26
  let c0_26 : Index := 0#32
  ![0, v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x8x4096x64_S16x4096x64 : S2x8x4096x64.ShapeCasts S16x4096x64
  shapeCasts_S2x1x1x4096_S2x4096 : S2x1x1x4096.ShapeCasts S2x4096
  bcast_S2x4096_S2x1x4096_0_2 : S2x4096.BroadcastsInDim S2x1x4096 (![0, 2] : Fin 2 → Fin S2x1x4096.rank)
  bcast_S2x1x4096_S2x8x4096_0_1_2 : S2x1x4096.BroadcastsInDim S2x8x4096 (![0, 1, 2] : Fin 3 → Fin S2x8x4096.rank)
  shapeCasts_S2x8x4096_S16x4096x1 : S2x8x4096.ShapeCasts S16x4096x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x1024x64 : 0 < S1x1024x64.numel
  shapeCasts_S1x1024x64_S1024x64 : S1x1024x64.ShapeCasts S1024x64
  h_S1x1024x1 : 0 < S1x1024x1.numel
  shapeCasts_S1x1024x1_S1024x1 : S1x1024x1.ShapeCasts S1024x1
  reduces_S1024x64_S1024 : S1024x64.Reduces [1] S1024
  shapeCasts_S1024_S1024x1 : S1024.ShapeCasts S1024x1
  broadcasts_S1024x1_S1024x64 : S1024x1.Broadcasts S1024x64
  bitsLt_bf16_f32 : FTy.bits .bf16 < FTy.bits .f32
  reduces_S1024x64_S64 : S1024x64.Reduces [0] S64
  shapeCasts_S64_S1x64 : S64.ShapeCasts S1x64
  reduces_S1024x1_S1 : S1024x1.Reduces [0] S1
  shapeCasts_S1_S1x1 : S1.ShapeCasts S1x1
  broadcasts_S1x64_S1024x64 : S1x64.Broadcasts S1024x64
  broadcasts_S1x1_S1024x1 : S1x1.Broadcasts S1024x1
  shapeCasts_S1024x64_S1x1024x64 : S1024x64.ShapeCasts S1x1024x64
  shapeCasts_S16x4096x64_S2x8x4096x64 : S16x4096x64.ShapeCasts S2x8x4096x64
  dot_S1024x64_S1024x64_S64x64_0_0_1_1_n_n_wf : DotDims.WF S1024x64 S1024x64 S64x64 [0] [0] [1] [1] [] []
  dot_S1024x64_S64x64_S1024x64_1_0_0_1_n_n_wf : DotDims.WF S1024x64 S64x64 S1024x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x64.size a ≤ S1x4096x64.size a
  k0_off2_inb : ∀ k0_t1 : Fin k0_t1_loop.trips, ∀ a, (k0_off2 k0_t1) a + S1x1024x1.size a ≤ S1x4096x1.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1x1024x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S16x4096x64.size a
  hwx0_0 : ∀ i : grid0.Coords, EltTy.bits .f32 = 32 ∨ (Rect.block (s := S16x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S16x4096x1.size a
  hwx0_3 : ∀ i : grid0.Coords, EltTy.bits .f32 = 32 ∨ (Rect.block (s := S16x4096x1) S1x4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x64.size a ≤ S16x4096x64.size a
  hwx0_4 : ∀ i : grid0.Coords, EltTy.bits .f32 = 32 ∨ (Rect.block (s := S16x4096x64) S1x4096x64.size (cc0_transform_4 i) (hinb0_4 i)).WholeWords (EltTy.packing .f32)

variable [Facts₀]

def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S2x1x1x4096 : Shape := ⟨4, ![2, 1, 1, 4096]⟩
abbrev S_ : Shape := ⟨0, ![]⟩
abbrev S2x8x4096 : Shape := ⟨3, ![2, 8, 4096]⟩
abbrev S2x8x4096x1 : Shape := ⟨4, ![2, 8, 4096, 1]⟩
abbrev S2x8x4096x4096 : Shape := ⟨4, ![2, 8, 4096, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x1x1x4096, .i32⟩
  | .hbm, ⟨4, _⟩ => ⟨S2x8x4096x64, .f32⟩
  | .hbm, ⟨5, _⟩ => ⟨S_, .f32⟩
  | .hbm, ⟨6, _⟩ => ⟨S2x8x4096, .f32⟩
  | .hbm, ⟨7, _⟩ => ⟨S2x8x4096x1, .f32⟩
  | .hbm, ⟨8, _⟩ => ⟨S2x8x4096x1, .f32⟩
  | .hbm, ⟨9, _⟩ => ⟨S_, .f32⟩
  | .hbm, ⟨10, _⟩ => ⟨S2x8x4096x1, .f32⟩
  | .hbm, ⟨11, _⟩ => ⟨S2x8x4096x1, .f32⟩
  | .hbm, ⟨12, _⟩ => ⟨S2x8x4096x64, .f32⟩
  | .hbm, ⟨13, _⟩ => ⟨S2x8x4096x64, .f32⟩
  | .hbm, ⟨14, _⟩ => ⟨S2x8x4096x64, .f32⟩
  | .hbm, ⟨15, _⟩ => ⟨S_, .f32⟩
  | .hbm, ⟨16, _⟩ => ⟨S2x8x4096, .f32⟩
  | .hbm, ⟨17, _⟩ => ⟨S2x8x4096x1, .f32⟩
  | .hbm, ⟨18, _⟩ => ⟨S2x8x4096x1, .f32⟩
  | .hbm, ⟨19, _⟩ => ⟨S_, .f32⟩
  | .hbm, ⟨20, _⟩ => ⟨S2x8x4096x1, .f32⟩
  | .hbm, ⟨21, _⟩ => ⟨S2x8x4096x1, .f32⟩
  | .hbm, ⟨22, _⟩ => ⟨S2x8x4096x64, .f32⟩
  | .hbm, ⟨23, _⟩ => ⟨S2x8x4096x64, .f32⟩
  | .hbm, ⟨24, _⟩ => ⟨S2x8x4096x4096, .f32⟩
  | .hbm, ⟨25, _⟩ => ⟨S_, .i32⟩
  | .hbm, ⟨26, _⟩ => ⟨S2x1x1x4096, .i32⟩
  | .hbm, ⟨27, _⟩ => ⟨S2x1x1x4096, .i1⟩
  | .hbm, ⟨28, _⟩ => ⟨S_, .f32⟩
  | .hbm, ⟨29, _⟩ => ⟨S2x8x4096x4096, .i1⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096x4096, .f32⟩
  | .hbm, ⟨34, _⟩ => ⟨S2x8x4096x4096, .f32⟩
  | .hbm, ⟨35, _⟩ => ⟨S_, .f32⟩
  | .hbm, ⟨36, _⟩ => ⟨S2x8x4096x4096, .f32⟩
  | .hbm, ⟨37, _⟩ => ⟨S2x8x4096x4096, .f32⟩
  | .hbm, ⟨38, _⟩ => ⟨S_, .f32⟩
  | .hbm, ⟨39, _⟩ => ⟨S2x8x4096, .f32⟩
  | .hbm, ⟨40, _⟩ => ⟨S2x8x4096x1, .f32⟩
  | .hbm, ⟨41, _⟩ => ⟨S2x8x4096x4096, .f32⟩
  | .hbm, ⟨42, _⟩ => ⟨S2x8x4096x4096, .f32⟩
  | .hbm, ⟨43, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_call2_v0 : Ref sig .tc := ⟨.hbm, 29, rfl⟩
abbrev main_call2_v1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  reducesTo_S2x8x4096x64_S2x8x4096_d3 : S2x8x4096x64.ReducesTo [3] S2x8x4096
  h_S_ : 0 < S_.numel
  bcast_S2x8x4096_S2x8x4096x1_0_1_2 : S2x8x4096.BroadcastsInDim S2x8x4096x1 (![0, 1, 2] : Fin 3 → Fin S2x8x4096x1.rank)
  bcast_S_S2x8x4096x1 : S_.BroadcastsInDim S2x8x4096x1 (![] : Fin 0 → Fin S2x8x4096x1.rank)
  bcast_S2x8x4096x1_S2x8x4096x64_0_1_2_3 : S2x8x4096x1.BroadcastsInDim S2x8x4096x64 (![0, 1, 2, 3] : Fin 4 → Fin S2x8x4096x64.rank)
  bcast_S_S2x1x1x4096 : S_.BroadcastsInDim S2x1x1x4096 (![] : Fin 0 → Fin S2x1x1x4096.rank)
  bcast_S2x1x1x4096_S2x8x4096x4096_0_1_2_3 : S2x1x1x4096.BroadcastsInDim S2x8x4096x4096 (![0, 1, 2, 3] : Fin 4 → Fin S2x8x4096x4096.rank)
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  bcast_S2x8x4096x1_S2x8x4096x4096_0_1_2_3 : S2x8x4096x1.BroadcastsInDim S2x8x4096x4096 (![0, 1, 2, 3] : Fin 4 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.KerTrips.lean ====
/-
  The kernel body's two counted loops, read as values (for any float instance). One trip of the first loop stores into
  each of the four scratch tables the table's contents plus the contribution of rows 1024·k … 1024·k + 1023 of the key,
  value and mask blocks; one trip of the second loop stores, at the same rows of the output block, the payload of the
  finished tables and those rows of the query block. So after `k` trips of the first loop the tables are the `k`-fold
  update of the zero fills (`tabs`), and after the second loop the output block is, row by row, the payload of the
  finished tables and the query block's rows.
-/
import proofs.«424872_j58093727645857_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

namespace Cert.CosAttn

open Cert.KernelIdeal Cert.KernelIdeal.Gen

variable [Cert.KernelIdeal.Facts]
variable {F : FTy → Type} [FloatOps F] [Named F]

/-- Each loop makes four trips. -/
theorem trips1_eq : k0_t1_loop.trips = 4 := by decide
theorem trips2_eq : k0_t2_loop.trips = 4 := by decide

/-- Rows 1024·k … 1024·k + 1023 of a [1,4096,64] block and of a [1,4096,1] block (first loop), and of the query and
    output blocks (second loop). -/
abbrev R64 (k : Fin k0_t1_loop.trips) : Rect S1x4096x64 := Rect.unit (s := S1x4096x64) (k0_off1 k) S1x1024x64.size (k0_off1_inb k)
abbrev R1 (k : Fin k0_t1_loop.trips) : Rect S1x4096x1 := Rect.unit (s := S1x4096x1) (k0_off2 k) S1x1024x1.size (k0_off2_inb k)
abbrev RQ (k : Fin k0_t2_loop.trips) : Rect S1x4096x64 := Rect.unit (s := S1x4096x64) (k0_off3 k) S1x1024x64.size (k0_off3_inb k)

/-- The whole-buffer rectangles of the four tables. -/
abbrev W6 : Rect S64x64 := Rect.unit (s := S64x64) ![0, 0] S64x64.size inb_S64x64_S64x64_0_0
abbrev W7 : Rect S1x64 := Rect.unit (s := S1x64) ![0, 0] S1x64.size inb_S1x64_S1x64_0_0
abbrev W9 : Rect S1x1 := Rect.unit (s := S1x1) ![0, 0] S1x1.size inb_S1x1_S1x1_0_0

theorem hz2 : (![0, 0] : Fin 2 → Nat) = fun _ => 0 := funext fun a => by fin_cases a <;> rfl

section Pieces

variable (𝒱 : Variants) (c : Dev nD) (bd : Option 𝒱.V) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x4096x64 .f32) (harg3 : arg3.IsWhole) (arg4 : Memref sig .tc .vmem S1x4096x1 .f32) (harg4 : arg4.IsWhole) (arg5 : Memref sig .tc .vmem S1x4096x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole)

/-- One trip of the second loop stores one piece: the payload of the four table values and the query rows it loads. -/
theorem trip2_pieces (v17 : Vec F S64x64 .f32) (v19 : Vec F S1x64 .f32) (v20 : Vec F S1x64 .f32) (v21 : Vec F S1x1 .f32)
    (X1 : BufTy.Contents (Elt F) arg1.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v17 v19 v20 v21 X1 k
      = [⟨RQ k, k0_pay8 v17 v19 v20 v21 (View.ld (arg1.view.read (Elt F) X1) (RQ k))⟩] := by
  unfold tripL_k0_t2 trip_k0_t2
  rfl

/-- One trip of the first loop stores one whole-table piece per table: the table's contents updated by the trip's rows. -/
theorem trip1_pieces (X2 : BufTy.Contents (Elt F) arg2.view.ty) (X3 : BufTy.Contents (Elt F) arg3.view.ty)
    (X4 : BufTy.Contents (Elt F) arg4.view.ty) (k : Fin k0_t1_loop.trips)
    (f6 : BufTy.Contents (Elt F) arg6.view.ty) (f7 : BufTy.Contents (Elt F) arg7.view.ty)
    (f8 : BufTy.Contents (Elt F) arg8.view.ty) (f9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X2 X3 X4 k f6 f7 f8 f9
      = ([⟨W6, k0_pay12 (View.ld (arg2.view.read (Elt F) X2) (R64 k)) (View.ld (arg3.view.read (Elt F) X3) (R64 k))
              (View.ld (arg4.view.read (Elt F) X4) (R1 k)) (View.ld (arg6.view.read (Elt F) f6) W6)⟩],
         [⟨W7, k0_pay5 (k0_pay13 (View.ld (arg3.view.read (Elt F) X3) (R64 k)) (View.ld (arg4.view.read (Elt F) X4) (R1 k))
              (View.ld (arg7.view.read (Elt F) f7) W7))⟩],
         [⟨W7, k0_pay6 (k0_pay11 (View.ld (arg2.view.read (Elt F) X2) (R64 k)) (View.ld (arg4.view.read (Elt F) X4) (R1 k)))
              (View.ld (arg8.view.read (Elt F) f8) W7)⟩],
         [⟨W9, k0_pay7 (k0_pay10 (View.ld (arg4.view.read (Elt F) X4) (R1 k))) (View.ld (arg9.view.read (Elt F) f9) W9)⟩]) := by
  unfold tripL_k0_t1 trip_k0_t1
  dsimp only
  sl_unfold_run_names
  rfl

end Pieces

/-- A store through the whole buffer, made last, is what the buffer reads afterwards. -/
theorem read_writes_whole {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

section Fold

variable (x1 x2 : Vec F S1x4096x64 .f32) (x3 : Vec F S1x4096x1 .f32)

/-- The four tables after `k` trips of the first loop: the zero fills, updated trip by trip with the rows of the key,
    value and mask blocks the trip loads. -/
def tabs : ℕ → Vec F S64x64 .f32 × Vec F S1x64 .f32 × Vec F S1x64 .f32 × Vec F S1x1 .f32
  | 0 => (k0_pay1, k0_pay2, k0_pay3, k0_pay4)
  | k + 1 =>
    if h : k < k0_t1_loop.trips then
      (k0_pay12 (View.ld x1 (R64 ⟨k, h⟩)) (View.ld x2 (R64 ⟨k, h⟩)) (View.ld x3 (R1 ⟨k, h⟩)) (tabs k).1,
        k0_pay5 (k0_pay13 (View.ld x2 (R64 ⟨k, h⟩)) (View.ld x3 (R1 ⟨k, h⟩)) (tabs k).2.1),
        k0_pay6 (k0_pay11 (View.ld x1 (R64 ⟨k, h⟩)) (View.ld x3 (R1 ⟨k, h⟩))) (tabs k).2.2.1,
        k0_pay7 (k0_pay10 (View.ld x3 (R1 ⟨k, h⟩))) (tabs k).2.2.2)
    else tabs k

theorem tabs_succ (k : Fin k0_t1_loop.trips) :
    tabs (F := F) x1 x2 x3 (k.val + 1)
      = (k0_pay12 (View.ld x1 (R64 k)) (View.ld x2 (R64 k)) (View.ld x3 (R1 k)) (tabs x1 x2 x3 k.val).1,
        k0_pay5 (k0_pay13 (View.ld x2 (R64 k)) (View.ld x3 (R1 k)) (tabs x1 x2 x3 k.val).2.1),
        k0_pay6 (k0_pay11 (View.ld x1 (R64 k)) (View.ld x3 (R1 k))) (tabs x1 x2 x3 k.val).2.2.1,
        k0_pay7 (k0_pay10 (View.ld x3 (R1 k))) (tabs x1 x2 x3 k.val).2.2.2) := by
  rw [tabs]; exact dif_pos k.isLt

end Fold

section Inv

variable (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x4096x64 .f32) (harg3 : arg3.IsWhole) (arg4 : Memref sig .tc .vmem S1x4096x1 .f32) (harg4 : arg4.IsWhole) (arg5 : Memref sig .tc .vmem S1x4096x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole)
variable (x1 x2 : Vec F S1x4096x64 .f32) (x3 : Vec F S1x4096x1 .f32)

/-- THE FIRST LOOP'S INVARIANT, read as values: after `k` trips each scratch buffer — the zero fill written over
    whatever it held, then the trips' whole-buffer stores — reads as the `k`-th table. -/
theorem tabs_inv (k : ℕ) (hk : k ≤ k0_t1_loop.trips) :
    arg6.view.read (Elt F) (arg6.view.writes (Elt F) (arg6.view.writes (Elt F) arg6.view.junk [⟨W6, k0_pay1⟩]) (pb_k0_t1 (F := F) Variants.none c none i arg1 harg1 arg2 harg2 arg3 harg3 arg4 harg4 arg5 harg5 arg6 harg6 arg7 harg7 arg8 harg8 arg9 harg9 (harg2.unread x1) (harg3.unread x2) (harg4.unread x3) (arg6.view.writes (Elt F) arg6.view.junk [⟨W6, k0_pay1⟩]) (arg7.view.writes (Elt F) arg7.view.junk [⟨W7, k0_pay2⟩]) (arg8.view.writes (Elt F) arg8.view.junk [⟨W7, k0_pay3⟩]) (arg9.view.writes (Elt F) arg9.view.junk [⟨W9, k0_pay4⟩]) k).1) = (tabs x1 x2 x3 k).1
    ∧ arg7.view.read (Elt F) (arg7.view.writes (Elt F) (arg7.view.writes (Elt F) arg7.view.junk [⟨W7, k0_pay2⟩]) (pb_k0_t1 (F := F) Variants.none c none i arg1 harg1 arg2 harg2 arg3 harg3 arg4 harg4 arg5 harg5 arg6 harg6 arg7 harg7 arg8 harg8 arg9 harg9 (harg2.unread x1) (harg3.unread x2) (harg4.unread x3) (arg6.view.writes (Elt F) arg6.view.junk [⟨W6, k0_pay1⟩]) (arg7.view.writes (Elt F) arg7.view.junk [⟨W7, k0_pay2⟩]) (arg8.view.writes (Elt F) arg8.view.junk [⟨W7, k0_pay3⟩]) (arg9.view.writes (Elt F) arg9.view.junk [⟨W9, k0_pay4⟩]) k).2.1) = (tabs x1 x2 x3 k).2.1
    ∧ arg8.view.read (Elt F) (arg8.view.writes (Elt F) (arg8.view.writes (Elt F) arg8.view.junk [⟨W7, k0_pay3⟩]) (pb_k0_t1 (F := F) Variants.none c none i arg1 harg1 arg2 harg2 arg3 harg3 arg4 harg4 arg5 harg5 arg6 harg6 arg7 harg7 arg8 harg8 arg9 harg9 (harg2.unread x1) (harg3.unread x2) (harg4.unread x3) (arg6.view.writes (Elt F) arg6.view.junk [⟨W6, k0_pay1⟩]) (arg7.view.writes (Elt F) arg7.view.junk [⟨W7, k0_pay2⟩]) (arg8.view.writes (Elt F) arg8.view.junk [⟨W7, k0_pay3⟩]) (arg9.view.writes (Elt F) arg9.view.junk [⟨W9, k0_pay4⟩]) k).2.2.1) = (tabs x1 x2 x3 k).2.2.1
    ∧ arg9.view.read (Elt F) (arg9.view.writes (Elt F) (arg9.view.writes (Elt F) arg9.view.junk [⟨W9, k0_pay4⟩]) (pb_k0_t1 (F := F) Variants.none c none i arg1 harg1 arg2 harg2 arg3 harg3 arg4 harg4 arg5 harg5 arg6 harg6 arg7 harg7 arg8 harg8 arg9 harg9 (harg2.unread x1) (harg3.unread x2) (harg4.unread x3) (arg6.view.writes (Elt F) arg6.view.junk [⟨W6, k0_pay1⟩]) (arg7.view.writes (Elt F) arg7.view.junk [⟨W7, k0_pay2⟩]) (arg8.view.writes (Elt F) arg8.view.junk [⟨W7, k0_pay3⟩]) (arg9.view.writes (Elt F) arg9.view.junk [⟨W9, k0_pay4⟩]) k).2.2.2) = (tabs x1 x2 x3 k).2.2.2 := by
  induction k with
  | zero =>
    refine ⟨?_, ?_, ?_, ?_⟩
    · exact read_writes_whole arg6.view _ hz2 _ _ []
    · exact read_writes_whole arg7.view _ hz2 _ _ []
    · exact read_writes_whole arg8.view _ hz2 _ _ []
    · exact read_writes_whole arg9.view _ hz2 _ _ []
  | succ k ih =>
    have hk' : k < k0_t1_loop.trips := hk
    obtain ⟨i6, i7, i8, i9⟩ := ih (Nat.le_of_lt hk')
    have hs := pb_k0_t1_succ (F := F) Variants.none c none i arg1 harg1 arg2 harg2 arg3 harg3 arg4 harg4 arg5 harg5 arg6 harg6 arg7 harg7 arg8 harg8 arg9 harg9 (harg2.unread x1) (harg3.unread x2) (harg4.unread x3) (arg6.view.writes (Elt F) arg6.view.junk [⟨W6, k0_pay1⟩]) (arg7.view.writes (Elt F) arg7.view.junk [⟨W7, k0_pay2⟩]) (arg8.view.writes (Elt F) arg8.view.junk [⟨W7, k0_pay3⟩]) (arg9.view.writes (Elt F) arg9.view.junk [⟨W9, k0_pay4⟩]) ⟨k, hk'⟩
    rw [trip1_pieces] at hs
    dsimp only at hs
    rw [harg2.read_unread, harg3.read_unread, harg4.read_unread, i6, i7, i8, i9] at hs
    have ts := tabs_succ (F := F) x1 x2 x3 ⟨k, hk'⟩
    rw [hs, show tabs x1 x2 x3 (k + 1) = _ from ts]
    dsimp only
    simp only [List.singleton_append, View.ld_unit_zero (S := S64x64) hz2, View.ld_unit_zero (S := S1x64) hz2,
      View.ld_unit_zero (S := S1x1) hz2]
    exact ⟨read_writes_whole arg6.view _ hz2 _ _ _, read_writes_whole arg7.view _ hz2 _ _ _,
      read_writes_whole arg8.view _ hz2 _ _ _, read_writes_whole arg9.view _ hz2 _ _ _⟩

end Inv

section Run

variable (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x4096x64 .f32) (harg3 : arg3.IsWhole) (arg4 : Memref sig .tc .vmem S1x4096x1 .f32) (harg4 : arg4.IsWhole) (arg5 : Memref sig .tc .vmem S1x4096x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole)
variable (x0 x1 x2 : Vec F S1x4096x64 .f32) (x3 : Vec F S1x4096x1 .f32)

/-- THE BODY'S RUN: the pieces it leaves in the output block are the second loop's, over the finished tables. -/
theorem run_pieces :
    (kernelRun0_A (F := F) c i arg1 harg1 arg2 harg2 arg3 harg3 arg4 harg4 arg5 harg5 arg6 harg6 arg7 harg7 arg8 harg8 arg9 harg9 x0 x1 x2 x3).1
      = pb_k0_t2 (F := F) Variants.none c none i arg1 harg1 arg2 harg2 arg3 harg3 arg4 harg4 arg5 harg5 arg6 harg6 arg7 harg7 arg8 harg8 arg9 harg9 (tabs x1 x2 x3 k0_t1_loop.trips).1 (tabs x1 x2 x3 k0_t1_loop.trips).2.1
          (tabs x1 x2 x3 k0_t1_loop.trips).2.2.1 (tabs x1 x2 x3 k0_t1_loop.trips).2.2.2 (harg1.unread x0) k0_t2_loop.trips := by
  obtain ⟨h6, h7, h8, h9⟩ := tabs_inv (F := F) c i arg1 harg1 arg2 harg2 arg3 harg3 arg4 harg4 arg5 harg5 arg6 harg6 arg7 harg7 arg8 harg8 arg9 harg9 x1 x2 x3 k0_t1_loop.trips le_rfl
  unfold kernelRun0_A
  dsimp only
  sl_unfold_run_names
  simp only [View.readAt_eq_ld, View.writes_append]
  congr 1
  all_goals first
    | exact (View.ld_unit_zero (S := S64x64) hz2 _ _).trans h6
    | exact (View.ld_unit_zero (S := S1x64) hz2 _ _).trans h7
    | exact (View.ld_unit_zero (S := S1x64) hz2 _ _).trans h8
    | exact (View.ld_unit_zero (S := S1x1) hz2 _ _).trans h9
    | rfl

end Run

section Block

variable (𝒱 : Variants) (c : Dev nD) (bd : Option 𝒱.V) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x4096x64 .f32) (harg3 : arg3.IsWhole) (arg4 : Memref sig .tc .vmem S1x4096x1 .f32) (harg4 : arg4.IsWhole) (arg5 : Memref sig .tc .vmem S1x4096x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole)

/-- Every piece the second loop's trips leave is some trip's: rows 1024·j … of the output block, at the payload of the
    table values and the query rows of the same trip. -/
theorem pb2_mem (v17 : Vec F S64x64 .f32) (v19 : Vec F S1x64 .f32) (v20 : Vec F S1x64 .f32) (v21 : Vec F S1x1 .f32)
    (X1 : BufTy.Contents (Elt F) arg1.view.ty) (k : ℕ) :
    ∀ p ∈ pb_k0_t2 (F := F) 𝒱 c bd i arg1 harg1 arg2 harg2 arg3 harg3 arg4 harg4 arg5 harg5 arg6 harg6 arg7 harg7 arg8 harg8 arg9 harg9 v17 v19 v20 v21 X1 k,
      ∃ j : Fin k0_t2_loop.trips, p = ⟨RQ j, k0_pay8 v17 v19 v20 v21 (View.ld (arg1.view.read (Elt F) X1) (RQ j))⟩ := by
  induction k with
  | zero => intro p hp; rw [pb_k0_t2] at hp; exact absurd hp List.not_mem_nil
  | succ k ih =>
    intro p hp
    rw [pb_k0_t2] at hp
    unfold pb_k0_t2Step at hp
    split at hp
    · rename_i h
      rw [trip2_pieces] at hp
      rcases List.mem_append.mp hp with h1 | h2
      · exact ⟨⟨k, h⟩, List.mem_singleton.mp h1⟩
      · exact ih p h2
    · exact ih p hp

end Block

section Out

variable (c : Dev nD) (i : grid0.Coords) (arg1 : Memref sig .tc .vmem S1x4096x64 .f32) (harg1 : arg1.IsWhole) (arg2 : Memref sig .tc .vmem S1x4096x64 .f32) (harg2 : arg2.IsWhole) (arg3 : Memref sig .tc .vmem S1x4096x64 .f32) (harg3 : arg3.IsWhole) (arg4 : Memref sig .tc .vmem S1x4096x1 .f32) (harg4 : arg4.IsWhole) (arg5 : Memref sig .tc .vmem S1x4096x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole)
variable (x0 x1 x2 : Vec F S1x4096x64 .f32) (x3 : Vec F S1x4096x1 .f32)

/-- Where trip `j` of the second loop places local row `x 1`, lane `x 2`: at row `1024·j + x 1`, the same lane. -/
theorem emb_RQ_1 (j : Fin k0_t2_loop.trips) (x : (RQ j).shape.Idx) : ((RQ j).emb x 1 : ℕ) = 1024 * j.val + (x 1).val := by
  show k0_off3 j 1 + 1 * (x 1).val = _
  rw [k0_off3_eq j, Nat.one_mul]; rfl
theorem emb_RQ_2 (j : Fin k0_t2_loop.trips) (x : (RQ j).shape.Idx) : ((RQ j).emb x 2 : ℕ) = (x 2).val := by
  show k0_off3 j 2 + 1 * (x 2).val = _
  rw [k0_off3_eq j, Nat.one_mul]; exact Nat.zero_add _

/-- The trip, the local row and the lane of an index of the output block. -/
def yj (y : S1x4096x64.Idx) : Fin k0_t2_loop.trips :=
  ⟨(y 1).val / 1024, by rw [trips2_eq]; have h : (y 1).val < 4096 := (y 1).isLt; omega⟩
def yr (y : S1x4096x64.Idx) : Fin 1024 := ⟨(y 1).val % 1024, Nat.mod_lt _ (by norm_num)⟩
def yd (y : S1x4096x64.Idx) : Fin 64 := ⟨(y 2).val, (y 2).isLt⟩

/-- Local row `r`, lane `d` of what trip `j` of the second loop stores, over tables `T` and query block `x0`. -/
def rowVal (T : Vec F S64x64 .f32 × Vec F S1x64 .f32 × Vec F S1x64 .f32 × Vec F S1x1 .f32) (x0 : Vec F S1x4096x64 .f32)
    (j : Fin k0_t2_loop.trips) (r : Fin 1024) (d : Fin 64) : Elt F .f32 :=
  k0_pay8 T.1 T.2.1 T.2.2.1 T.2.2.2 (View.ld x0 (RQ j)) (ix3 0 r d)

/-- THE OUTPUT BLOCK after the body: at every index, the payload of the finished tables and the query rows of the trip
    that covers the index. -/
theorem out_block (y : S1x4096x64.Idx) :
    out0_A_4 (F := F) c i arg1 harg1 arg2 harg2 arg3 harg3 arg4 harg4 arg5 harg5 arg6 harg6 arg7 harg7 arg8 harg8 arg9 harg9 x0 x1 x2 x3 y = rowVal (tabs x1 x2 x3 4) x0 (yj y) (yr y) (yd y) := by
  unfold out0_A_4
  rw [View.read_writes_junk_eq_canon]
  refine View.canon_apply_of_pieces (fun y => rowVal (tabs x1 x2 x3 4) x0 (yj y) (yr y) (yd y)) _ ?_ y
    (cover0_A_4 (F := F) c i arg1 harg1 arg2 harg2 arg3 harg3 arg4 harg4 arg5 harg5 arg6 harg6 arg7 harg7 arg8 harg8 arg9 harg9 x0 x1 x2 x3 y)
  intro p hp x
  have e4 : tabs (F := F) x1 x2 x3 k0_t1_loop.trips = tabs x1 x2 x3 4 := congrArg _ trips1_eq
  rw [run_pieces, e4] at hp
  obtain ⟨j, rfl⟩ := pb2_mem (F := F) Variants.none c none i arg1 harg1 arg2 harg2 arg3 harg3 arg4 harg4 arg5 harg5 arg6 harg6 arg7 harg7 arg8 harg8 arg9 harg9 _ _ _ _ _ _ p hp
  change k0_pay8 (tabs x1 x2 x3 4).1 (tabs x1 x2 x3 4).2.1 (tabs x1 x2 x3 4).2.2.1 (tabs x1 x2 x3 4).2.2.2
      (View.ld (View.read (Elt F) arg1.view (harg1.unread x0)) (RQ j)) x
    = rowVal (tabs x1 x2 x3 4) x0 (yj ((RQ j).emb x)) (yr ((RQ j).emb x)) (yd ((RQ j).emb x))
  rw [harg1.read_unread]
  have hx1 : (x 1).val < 1024 := (x 1).isLt
  have hx0 : (x 0).val < 1 := (x 0).isLt
  have ej : yj ((RQ j).emb x) = j :=
    Fin.ext (by show ((RQ j).emb x 1 : ℕ) / 1024 = j.val; rw [emb_RQ_1]; omega)
  have ex : (ix3 (0 : Fin 1) (yr ((RQ j).emb x)) (yd ((RQ j).emb x)) : S1x1024x64.Idx) = x := funext fun a => Fin.ext (by
    match a with
    | ⟨0, _⟩ => show 0 = (x 0).val; omega
    | ⟨1, _⟩ => show ((RQ j).emb x 1 : ℕ) % 1024 = (x 1).val; rw [emb_RQ_1]; omega
    | ⟨2, _⟩ => exact emb_RQ_2 j x)
  unfold rowVal
  rw [ej, ex]

end Out

end Cert.CosAttn

end
-- ==== Proof.Spec.lean ====
/-
  Cosine attention with sum-normalised weights, as functions of the four argument arrays over the reals.

  A row `x` of the query or key array is scaled to at most unit length: `x / max (‖x‖) ε`, with `ε` the floor
  the reference puts under the norm (the dyadic rational its f32 word 0x2B8CBCCC denotes). A key `k` of batch `b`
  gets the weight `(cos + 1) / 2` of the scaled query and key rows' inner product `cos`, or `0` where the mask word
  of `(b, k)` is zero; the weights of one query row are divided by their sum and the result is the weighted sum
  of the value rows (`out`). The second group of definitions is the same quantity arranged the other way round:
  the sums over the keys taken first (`C1`, `c2`, `c3`, `nm`: tables that do not depend on the query row), the
  mask word entering as the factor it denotes, the row scaled by `(√(max ‖x‖² ε²))⁻¹`; `kerNum / kerDen`.
  Entries of the arrays are read as reals by `EReal.toReal`: the statements that use these definitions
  carry the hypothesis that the entries are finite.
-/
import Idealize.ShloMosaic.PureOps.Ideal
import Idealize.ShloMosaic.Lib.ValueIdx

noncomputable section

open scoped BigOperators
open Idealize.ShloMosaic Idealize.ShloMosaic.ValueIdx

namespace Cert.CosAttn

/-- The query, key and value arrays' shape, and the mask's. -/
abbrev SQ : Shape := ⟨4, ![2, 8, 4096, 64]⟩
abbrev SM : Shape := ⟨4, ![2, 1, 1, 4096]⟩

/-- The floor under a row's norm: 2305843 / 2^61, the value of the f32 word 0x2B8CBCCC. -/
def epsR : ℝ := 2305843 / 2305843009213693952

theorem epsR_pos : 0 < epsR := by unfold epsR; norm_num

/-- Entry `(b, h, s, e)` of an array, as a real. -/
def rl (X : SQ.Idx → EReal) (b : Fin 2) (h : Fin 8) (s : Fin 4096) (e : Fin 64) : ℝ := (X (ix4 b h s e)).toReal

/-- The mask word of batch `b`, key `k`. -/
def msk (M : SM.Idx → BitVec 32) (b : Fin 2) (k : Fin 4096) : BitVec 32 := M (ix4 b 0 0 k)

/-- A row's sum of squares. -/
def sumsq (X : SQ.Idx → EReal) (b : Fin 2) (h : Fin 8) (s : Fin 4096) : ℝ := ∑ e, rl X b h s e * rl X b h s e

/-! ## Weights first, then the sum over the keys -/

/-- A row scaled to at most unit length: divided by its norm, the norm floored at `epsR`. -/
def unit (X : SQ.Idx → EReal) (b : Fin 2) (h : Fin 8) (s : Fin 4096) (e : Fin 64) : ℝ :=
  rl X b h s e / max (Real.sqrt (sumsq X b h s)) epsR

/-- The weight of key `k` for query row `s`: `(cos + 1) / 2`, with `-1` in the cosine's place where the mask word is zero. -/
def score (Q K : SQ.Idx → EReal) (M : SM.Idx → BitVec 32) (b : Fin 2) (h : Fin 8) (s k : Fin 4096) : ℝ :=
  ((if msk M b k = 0#32 then (-1 : ℝ) else ∑ e, unit Q b h s e * unit K b h k e) + 1) * (1 / 2)

/-- The weights' sum over the keys. -/
def rowsum (Q K : SQ.Idx → EReal) (M : SM.Idx → BitVec 32) (b : Fin 2) (h : Fin 8) (s : Fin 4096) : ℝ :=
  ∑ k, score Q K M b h s k

/-- The weighted sum of the value rows, the weights divided by their sum. -/
def out (Q K V : SQ.Idx → EReal) (M : SM.Idx → BitVec 32) (b : Fin 2) (h : Fin 8) (s : Fin 4096) (d : Fin 64) : ℝ :=
  ∑ k, score Q K M b h s k / rowsum Q K M b h s * rl V b h k d

/-- The result array. -/
def G (Q K V : SQ.Idx → EReal) (M : SM.Idx → BitVec 32) : SQ.Idx → EReal :=
  fun i => ((out Q K V M (i 0) (i 1) (i 2) (i 3) : ℝ) : EReal)

/-! ## The sums over the keys first -/

/-- A row scaled by the reciprocal square root of its sum of squares, floored at `epsR²`. -/
def unitK (X : SQ.Idx → EReal) (b : Fin 2) (h : Fin 8) (s : Fin 4096) (e : Fin 64) : ℝ :=
  rl X b h s e * (Real.sqrt (max (sumsq X b h s) (epsR * epsR)))⁻¹

/-- The mask word as the number it denotes (read signed). -/
def mR (M : SM.Idx → BitVec 32) (b : Fin 2) (k : Fin 4096) : ℝ := ((msk M b k).toInt : ℝ)

/-- The masked, scaled keys contracted with the values over the keys. -/
def C1 (K V : SQ.Idx → EReal) (M : SM.Idx → BitVec 32) (b : Fin 2) (h : Fin 8) (e d : Fin 64) : ℝ :=
  ∑ k, (mR M b k * unitK K b h k e) * rl V b h k d

/-- The masked values summed over the keys. -/
def c2 (V : SQ.Idx → EReal) (M : SM.Idx → BitVec 32) (b : Fin 2) (h : Fin 8) (d : Fin 64) : ℝ :=
  ∑ k, mR M b k * rl V b h k d

/-- The masked, scaled keys summed over the keys. -/
def c3 (K : SQ.Idx → EReal) (M : SM.Idx → BitVec 32) (b : Fin 2) (h : Fin 8) (e : Fin 64) : ℝ :=
  ∑ k, mR M b k * unitK K b h k e

/-- The number of unmasked keys (the mask words' sum). -/
def nm (M : SM.Idx → BitVec 32) (b : Fin 2) : ℝ := ∑ k, mR M b k

def kerNum (Q K V : SQ.Idx → EReal) (M : SM.Idx → BitVec 32) (b : Fin 2) (h : Fin 8) (s : Fin 4096) (d : Fin 64) : ℝ :=
  1 / 2 * (∑ e, unitK Q b h s e * C1 K V M b h e d) + 1 / 2 * c2 V M b h d

def kerDen (Q K : SQ.Idx → EReal) (M : SM.Idx → BitVec 32) (b : Fin 2) (h : Fin 8) (s : Fin 4096) : ℝ :=
  1 / 2 * (∑ e, unitK Q b h s e * c3 K M b h e) + 1 / 2 * nm M b

end Cert.CosAttn

end
-- ==== Proof.KerPayloads.lean ====
/-
  The kernel body's arithmetic, read index by index at the ideal instance. A block of 1024 rows of the key (or query)
  array has each row scaled by the reciprocal square root of its sum of squares, floored at the named constant
  `eps_sq` (`scaledRow`); one trip of the first loop adds to the four running tables the block's contribution — the
  masked scaled keys contracted with the values over the block's rows, the masked values' column sums, the masked
  scaled keys' column sums, the mask's sum —; one trip of the second loop writes, for each row of a query block,
  the quotient of `½ · (scaled row · C1) + ½ · c2` by `½ · (scaled row · c3) + ½ · nm` over the finished tables.
-/
import proofs.«424872_j58093727645857_3_alg».proof.Proof.Gen.KernelIdeal.Skeleton
import proofs.«424872_j58093727645857_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

namespace Cert.CosAttn

open Cert.KernelIdeal Cert.KernelIdeal.Gen

variable [Cert.KernelIdeal.Facts]

/-- The kernel's floor under a row's sum of squares: the named constant, which denotes the square of `epsR`. -/
abbrev epsSqE : EReal := Named.named (F := Ideal) Cert.KernelIdeal.κ "eps_sq" (φ := .f32) 0x179ABE15#32

theorem epsSqE_eq : epsSqE = ((epsR * epsR : ℝ) : EReal) := by
  have h : epsSqE = ((5316911940649 / 5316911983139663491615228241121378304 : ℝ) : EReal) :=
    IdealRules.named_const.ideal_named_scalar _ _ _ _ rfl
  rw [h]
  congr 1
  norm_num [epsR]

/-- One half, as the kernel spells it. -/
abbrev halfE : EReal := Ideal.ofBits .f32 0x3F000000#32

theorem halfE_eq : halfE = (((1 / 2 : ℝ)) : EReal) := by
  simp [Ideal.ofBits, Ideal.ieee, -EReal.coe_mul]
  norm_num

/-- Row `r` of a block, entry `e`, scaled by the reciprocal square root of the row's floored sum of squares. -/
def scaledRow (xb : Vec Ideal S1x1024x64 .f32) (r : Fin 1024) (e : Fin 64) : EReal :=
  xb (ix3 0 r e) * Ideal.rsqrt (max (∑ e' : Fin 64, xb (ix3 0 r e') * xb (ix3 0 r e')) epsSqE)

namespace Payload

/-! ## The body's layout operations and sums, read at coordinates -/

section Layout
variable {α : Type}

/-- A vector of `a` entries cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the lanes to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A single entry `[1, 1]` repeated down a column `[a, 1]` reads that entry everywhere. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else u.val
    rw [if_pos rfl]

end Layout

/-- A sum along the lanes of an `[a, b]` vector is, at row `r`, the sum of that row's entries. -/
theorem sumLanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction (F := Ideal) .add [1] ⟨1, ![a]⟩ src acc h hφ hacc (ix1 r) = ∑ e : Fin b, src (ix2 r e) :=
  (Ideal.multiReduction_add_single src acc h hφ hacc (ix1 r)).trans
    (Finset.sum_congr rfl fun e _ => congrArg src (funext fun ax => match ax with
      | ⟨0, _⟩ => Fin.ext rfl
      | ⟨1, _⟩ => Fin.ext rfl))

/-- A sum along the rows of an `[a, b]` vector is, at lane `c`, the sum of that column's entries. -/
theorem sumRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction (F := Ideal) .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun ax => match ax with
      | ⟨0, _⟩ => Fin.ext rfl
      | ⟨1, _⟩ => Fin.ext rfl))

/-- A block with its leading unit axis dropped reads, at `(r, c)`, the block at `(0, r, c)`. -/
theorem pay9_apply (vb : Vec Ideal S1x1024x64 .f32) (r : Fin 1024) (d : Fin 64) : k0_pay9 (F := Ideal) vb (ix2 r d) = vb (ix3 0 r d) := by
  unfold k0_pay9
  exact shapeCast_1ab_ab_apply vb _ r d
theorem pay10_apply (mb : Vec Ideal S1x1024x1 .f32) (r : Fin 1024) : k0_pay10 (F := Ideal) mb (ix2 r 0) = mb (ix3 0 r 0) := by
  unfold k0_pay10
  exact shapeCast_1ab_ab_apply mb _ r 0

/-- The mask column repeated along the lanes reads, at `(r, c)`, the mask of row `r`. -/
theorem maskLanes_apply (mb : Vec Ideal S1x1024x1 .f32) (h : S1024x1.Broadcasts S1024x64) (r : Fin 1024) (c : Fin 64) :
    broadcastTo S1024x64 (k0_pay10 (F := Ideal) mb) h (ix2 r c) = mb (ix3 0 r 0) :=
  (broadcastTo_a1_ab_apply _ h r c).trans (pay10_apply mb r)

/-- A block's rows, each scaled by the reciprocal square root of its floored sum of squares, as the body computes
    them: the squares summed along the lanes, the column of sums floored and inverted, the column repeated along
    the lanes and multiplied back. -/
theorem scaled_apply (xb : Vec Ideal S1x1024x64 .f32) (h1 : S1x1024x64.ShapeCasts S1024x64)
    (h2 : S1024x64.Reduces [1] S1024) (hφ : FKind.Formats .f32)
    (hacc : (0x00000000#32 : BitVec 32) = FKind.add.neutral .f32 hφ) (h3 : S1024.ShapeCasts S1024x1)
    (h4 : S1024x1.Broadcasts S1024x64) (r : Fin 1024) (e : Fin 64) :
    mulf (F := Ideal) (shapeCast S1024x64 xb h1)
        (broadcastTo S1024x64
          (rsqrt (maximumf
            (shapeCast S1024x1
              (multiReduction (F := Ideal) .add [1] S1024 (mulf (shapeCast S1024x64 xb h1) (shapeCast S1024x64 xb h1))
                0x00000000#32 h2 hφ hacc) h3)
            (broadcast S1024x1 epsSqE))) h4) (ix2 r e)
      = scaledRow xb r e := by
  have hx : ∀ c : Fin 64, shapeCast S1024x64 xb h1 (ix2 r c) = xb (ix3 0 r c) := fun c => shapeCast_1ab_ab_apply xb h1 r c
  have hs : shapeCast S1024x1
      (multiReduction (F := Ideal) .add [1] S1024 (mulf (shapeCast S1024x64 xb h1) (shapeCast S1024x64 xb h1))
        0x00000000#32 h2 hφ hacc) h3 (ix2 r 0)
      = ∑ e' : Fin 64, xb (ix3 0 r e') * xb (ix3 0 r e') :=
    (shapeCast_a_a1_apply _ h3 r 0).trans ((sumLanes_apply _ _ h2 hφ hacc r).trans
      (Finset.sum_congr rfl fun c _ => congrArg₂ (· * ·) (hx c) (hx c)))
  unfold scaledRow
  refine congrArg₂ (· * ·) (hx e) ?_
  refine (broadcastTo_a1_ab_apply _ h4 r e).trans ?_
  exact congrArg (fun t => Ideal.rsqrt (max t epsSqE)) hs

/-! ## The two contractions

The first contracts the rows of two `[1024, 64]` operands (axis 0 of both) into a `[64, 64]` table; the second contracts the
lanes of a `[1024, 64]` operand with the rows of a `[64, 64]` table. Each operand index at an output index and a contraction
position is read axis by axis. -/

theorem lhs_rows_0 (i : S64x64.Idx) (q : dot_S1024x64_S1024x64_S64x64_0_0_1_1_n_n.contr.Idx) :
    (dot_S1024x64_S1024x64_S64x64_0_0_1_1_n_n.lhsIdx i q 0).val = (q ⟨0, by decide⟩).val :=
  dot_S1024x64_S1024x64_S64x64_0_0_1_1_n_n.lhsIdx_val_of_single rfl i q
theorem lhs_rows_1 (i : S64x64.Idx) (q : dot_S1024x64_S1024x64_S64x64_0_0_1_1_n_n.contr.Idx) :
    (dot_S1024x64_S1024x64_S64x64_0_0_1_1_n_n.lhsIdx i q 1).val = (i 0).val := by
  unfold DotDims.lhsIdx
  rw [dif_neg (show ¬(1 : Fin S1024x64.rank) ∈ dot_S1024x64_S1024x64_S64x64_0_0_1_1_n_n.lhsBatch by decide), dif_pos (show (1 : Fin S1024x64.rank) ∈ dot_S1024x64_S1024x64_S64x64_0_0_1_1_n_n.lhsNonContracting by decide)]
  rfl
theorem rhs_rows_0 (i : S64x64.Idx) (q : dot_S1024x64_S1024x64_S64x64_0_0_1_1_n_n.contr.Idx) :
    (dot_S1024x64_S1024x64_S64x64_0_0_1_1_n_n.rhsIdx i q 0).val = (q ⟨0, by decide⟩).val :=
  dot_S1024x64_S1024x64_S64x64_0_0_1_1_n_n.rhsIdx_val_of_single rfl i q
theorem rhs_rows_1 (i : S64x64.Idx) (q : dot_S1024x64_S1024x64_S64x64_0_0_1_1_n_n.contr.Idx) :
    (dot_S1024x64_S1024x64_S64x64_0_0_1_1_n_n.rhsIdx i q 1).val = (i 1).val := by
  unfold DotDims.rhsIdx
  rw [dif_neg (show ¬(1 : Fin S1024x64.rank) ∈ dot_S1024x64_S1024x64_S64x64_0_0_1_1_n_n.rhsBatch by decide), dif_pos (show (1 : Fin S1024x64.rank) ∈ dot_S1024x64_S1024x64_S64x64_0_0_1_1_n_n.rhsNonContracting by decide)]
  rfl

/-- The contraction over the rows into the zero table, at `(e, d)`: the sum over the rows of the products of the two
    operands' entries in lanes `e` and `d`. -/
theorem matmul_rows_apply {φ₁ φ₂ : FTy} (l : FVec Ideal S1024x64 φ₁) (x : FVec Ideal S1024x64 φ₂) (e d : Fin 64) :
    matmul dot_S1024x64_S1024x64_S64x64_0_0_1_1_n_n none l x (constant (F := Ideal) S64x64 .f32 0x00000000#32) (ix2 e d)
      = ∑ r : Fin 1024, l (ix2 r e) * x (ix2 r d) := by
  refine (Ideal.matmul_constant_zero_apply dot_S1024x64_S1024x64_S64x64_0_0_1_1_n_n none l x (ix2 e d)).trans ?_
  rw [← Equiv.sum_comp (contrEquiv1 dot_S1024x64_S1024x64_S64x64_0_0_1_1_n_n 1024 rfl rfl).symm]
  refine Finset.sum_congr rfl fun k _ => ?_
  have hk := contrEquiv1_symm_val dot_S1024x64_S1024x64_S64x64_0_0_1_1_n_n 1024 rfl rfl k
  have el : dot_S1024x64_S1024x64_S64x64_0_0_1_1_n_n.lhsIdx (ix2 e d) ((contrEquiv1 dot_S1024x64_S1024x64_S64x64_0_0_1_1_n_n 1024 rfl rfl).symm k) = ix2 k e := funext fun a => Fin.ext (by
    match a with
    | ⟨0, _⟩ => exact (lhs_rows_0 _ _).trans hk
    | ⟨1, _⟩ => exact lhs_rows_1 _ _)
  have er : dot_S1024x64_S1024x64_S64x64_0_0_1_1_n_n.rhsIdx (ix2 e d) ((contrEquiv1 dot_S1024x64_S1024x64_S64x64_0_0_1_1_n_n 1024 rfl rfl).symm k) = ix2 k d := funext fun a => Fin.ext (by
    match a with
    | ⟨0, _⟩ => exact (rhs_rows_0 _ _).trans hk
    | ⟨1, _⟩ => exact rhs_rows_1 _ _)
  rw [el, er]

theorem lhs_lanes_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_lanes_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_lanes_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_lanes_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The contraction of an operand's lanes with a table's rows into the zero block, at `(r, d)`: the sum over the
    lanes of row `r`'s entries times the table's column `d`. -/
theorem matmul_lanes_apply {φ₁ φ₂ : FTy} (l : FVec Ideal S1024x64 φ₁) (x : FVec Ideal S64x64 φ₂) (r : Fin 1024) (d : Fin 64) :
    matmul dot_S1024x64_S64x64_S1024x64_1_0_0_1_n_n none l x (constant (F := Ideal) S1024x64 .f32 0x00000000#32) (ix2 r d)
      = ∑ e : Fin 64, l (ix2 r e) * x (ix2 e d) := by
  refine (Ideal.matmul_constant_zero_apply dot_S1024x64_S64x64_S1024x64_1_0_0_1_n_n none l x (ix2 r d)).trans ?_
  rw [← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 r d) ((contrEquiv1 dot_S1024x64_S64x64_S1024x64_1_0_0_1_n_n 64 rfl rfl).symm k) = ix2 r k := funext fun a => Fin.ext (by
    match a with
    | ⟨0, _⟩ => exact lhs_lanes_0 _ _
    | ⟨1, _⟩ => exact (lhs_lanes_1 _ _).trans hk)
  have er : dot_S1024x64_S64x64_S1024x64_1_0_0_1_n_n.rhsIdx (ix2 r d) ((contrEquiv1 dot_S1024x64_S64x64_S1024x64_1_0_0_1_n_n 64 rfl rfl).symm k) = ix2 k d := funext fun a => Fin.ext (by
    match a with
    | ⟨0, _⟩ => exact (rhs_lanes_0 _ _).trans hk
    | ⟨1, _⟩ => exact rhs_lanes_1 _ _)
  rw [el, er]

end Payload

open Payload

variable (kb vb qb : Vec Ideal S1x1024x64 .f32) (mb : Vec Ideal S1x1024x1 .f32)

/-- The four zero fills. -/
theorem pay1_apply (e d : Fin 64) : k0_pay1 (F := Ideal) (ix2 e d) = 0 := by
  unfold k0_pay1
  exact (congrFun (shapeCast_self _ _) _).trans Ideal.ofBits_zero_f32
theorem pay2_apply (d : Fin 64) : k0_pay2 (F := Ideal) (ix2 0 d) = 0 := by
  unfold k0_pay2
  exact (congrFun (shapeCast_self _ _) _).trans Ideal.ofBits_zero_f32
theorem pay3_apply (e : Fin 64) : k0_pay3 (F := Ideal) (ix2 0 e) = 0 := by
  unfold k0_pay3
  exact (congrFun (shapeCast_self _ _) _).trans Ideal.ofBits_zero_f32
theorem pay4_apply : k0_pay4 (F := Ideal) (ix2 0 0) = 0 := by
  unfold k0_pay4
  exact (congrFun (shapeCast_self _ _) _).trans Ideal.ofBits_zero_f32

/-- The masked scaled keys of a block. -/
theorem pay11_apply (r : Fin 1024) (e : Fin 64) :
    k0_pay11 (F := Ideal) kb mb (ix2 r e) = mb (ix3 0 r 0) * scaledRow kb r e := by
  unfold k0_pay11
  exact congrArg₂ (· * ·) (maskLanes_apply mb _ r e) (scaled_apply kb _ _ _ _ _ _ r e)

/-- One trip's update of the 64 × 64 table: the masked scaled keys contracted with the values over the block's rows. -/
theorem pay12_apply (acc : Vec Ideal S64x64 .f32) (e d : Fin 64) :
    k0_pay12 (F := Ideal) kb vb mb acc (ix2 e d)
      = acc (ix2 e d) + ∑ r : Fin 1024, (mb (ix3 0 r 0) * scaledRow kb r e) * vb (ix3 0 r d) := by
  unfold k0_pay12
  refine (congrFun (shapeCast_self _ _) _).trans ?_
  refine congrArg (acc (ix2 e d) + ·) ?_
  refine (matmul_rows_apply _ _ e d).trans ?_
  exact Finset.sum_congr rfl fun r _ => congrArg₂ (· * ·) (pay11_apply kb mb r e) (pay9_apply vb r d)

/-- One trip's update of the masked values' column sums. -/
theorem pay5_pay13_apply (acc : Vec Ideal S1x64 .f32) (d : Fin 64) :
    k0_pay5 (F := Ideal) (k0_pay13 (F := Ideal) vb mb acc) (ix2 0 d)
      = acc (ix2 0 d) + ∑ r : Fin 1024, mb (ix3 0 r 0) * vb (ix3 0 r d) := by
  unfold k0_pay5 k0_pay13
  refine (congrFun (shapeCast_self _ _) _).trans ?_
  refine congrArg (acc (ix2 0 d) + ·) ?_
  refine (shapeCast_a_1a_apply _ _ 0 d).trans ?_
  refine (sumRows_apply _ _ _ _ _ d).trans ?_
  exact Finset.sum_congr rfl fun r _ => congrArg₂ (· * ·) (maskLanes_apply mb _ r d) (pay9_apply vb r d)

/-- One trip's update of the masked scaled keys' column sums. -/
theorem pay6_pay11_apply (acc : Vec Ideal S1x64 .f32) (e : Fin 64) :
    k0_pay6 (F := Ideal) (k0_pay11 (F := Ideal) kb mb) acc (ix2 0 e)
      = acc (ix2 0 e) + ∑ r : Fin 1024, mb (ix3 0 r 0) * scaledRow kb r e := by
  unfold k0_pay6
  refine (congrFun (shapeCast_self _ _) _).trans ?_
  refine congrArg (acc (ix2 0 e) + ·) ?_
  refine (shapeCast_a_1a_apply _ _ 0 e).trans ?_
  refine (sumRows_apply _ _ _ _ _ e).trans ?_
  exact Finset.sum_congr rfl fun r _ => pay11_apply kb mb r e

/-- One trip's update of the mask's sum. -/
theorem pay7_pay10_apply (acc : Vec Ideal S1x1 .f32) :
    k0_pay7 (F := Ideal) (k0_pay10 (F := Ideal) mb) acc (ix2 0 0)
      = acc (ix2 0 0) + ∑ r : Fin 1024, mb (ix3 0 r 0) := by
  unfold k0_pay7
  refine (congrFun (shapeCast_self _ _) _).trans ?_
  refine congrArg (acc (ix2 0 0) + ·) ?_
  refine (shapeCast_a_1a_apply _ _ 0 0).trans ?_
  refine (sumRows_apply _ _ _ _ _ 0).trans ?_
  exact Finset.sum_congr rfl fun r _ => pay10_apply mb r

/-- One trip of the second loop: a row of the query block against the finished tables. -/
theorem pay8_apply (v17 : Vec Ideal S64x64 .f32) (v19 v20 : Vec Ideal S1x64 .f32) (v21 : Vec Ideal S1x1 .f32)
    (r : Fin 1024) (d : Fin 64) :
    k0_pay8 (F := Ideal) v17 v19 v20 v21 qb (ix3 0 r d)
      = Ideal.div (halfE * (∑ e : Fin 64, scaledRow qb r e * v17 (ix2 e d)) + halfE * v19 (ix2 0 d))
          (halfE * (∑ e : Fin 64, scaledRow qb r e * v20 (ix2 0 e)) + halfE * v21 (ix2 0 0)) := by
  unfold k0_pay8
  refine (shapeCast_ab_1ab_apply _ _ 0 r d).trans ?_
  refine congrArg₂ Ideal.div (congrArg₂ (· + ·) (congrArg (halfE * ·) ?_) ?_) ?_
  · refine (matmul_lanes_apply _ _ r d).trans ?_
    exact Finset.sum_congr rfl fun e _ => congrArg (· * v17 (ix2 e d)) (scaled_apply qb _ _ _ _ _ _ r e)
  · exact (broadcastTo_1b_ab_apply _ _ r d)
  · refine (broadcastTo_a1_ab_apply _ _ r d).trans ?_
    refine congrArg₂ (· + ·) (congrArg (halfE * ·) ?_) ?_
    · refine (shapeCast_a_a1_apply _ _ r 0).trans ?_
      refine (sumLanes_apply _ _ _ _ _ r).trans ?_
      exact Finset.sum_congr rfl fun e _ =>
        congrArg₂ (· * ·) (scaled_apply qb _ _ _ _ _ _ r e) (broadcastTo_1b_ab_apply v20 _ r e)
    · exact broadcastTo_11_a1_apply _ _ r 0

end Cert.CosAttn

end
-- ==== Proof.LibERealSums.lean ====
/-
  Extended reals that are real numbers, under the ideal instance's operations: a finite sum of coerced reals is the
  coerced sum; the reciprocal square root, the quotient and the maximum of coerced reals are the coerced real ones
  (away from the reciprocal square root's and the quotient's poles); a signed word converted to a float is the integer it
  denotes; and a sum over 4096 indices is the sum of its four consecutive runs of 1024, added in order onto zero.
-/
import Idealize.ShloMosaic.PureOps.Ideal
import Idealize.ShloMosaic.Lib.ValueIdx

noncomputable section

open scoped BigOperators
open Idealize.ShloMosaic

namespace Cert.CosAttn

/-- A finite sum of real numbers, coerced, is the sum of the coerced numbers. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-- The quotient of two reals by a nonzero one. -/
theorem div_coe_coe (x : ℝ) {y : ℝ} (hy : y ≠ 0) : Ideal.div (x : EReal) (y : EReal) = ((x / y : ℝ) : EReal) := by
  rw [Ideal.div_coe hy, ← EReal.coe_mul, mul_one_div]

/-- A signed 32-bit word converted to a float is the integer it denotes. -/
theorem sitofp_coe (w : BitVec 32) : FloatOps.sitofp (F := Ideal) .f32 w = (((w.toInt : ℝ)) : EReal) := by
  rfl

/-- A sum over 4096 indices is its four runs of 1024 consecutive indices, added in order onto zero. -/
theorem sum_four_runs (g : Fin 4096 → ℝ) :
    ∑ s : Fin 4096, g s
      = (((0 + ∑ r : Fin 1024, g ⟨1024 * 0 + r.val, by omega⟩) + ∑ r : Fin 1024, g ⟨1024 * 1 + r.val, by omega⟩)
          + ∑ r : Fin 1024, g ⟨1024 * 2 + r.val, by omega⟩) + ∑ r : Fin 1024, g ⟨1024 * 3 + r.val, by omega⟩ := by
  -- index `s` is `r + 1024 · j` for exactly one run `j : Fin 4` and one place `r : Fin 1024` in it
  have run : ∀ (j : Fin 4) (c : ℕ) (_ : j.val = c) (hj : ∀ r : Fin 1024, 1024 * c + r.val < 4096),
      ∑ r : Fin 1024, g ((finProdFinEquiv : Fin 4 × Fin 1024 ≃ Fin 4096) (j, r))
        = ∑ r : Fin 1024, g ⟨1024 * c + r.val, hj r⟩ := by
    intro j c hc hj
    refine Finset.sum_congr rfl fun r _ => congrArg g (Fin.ext ?_)
    show r.val + 1024 * j.val = 1024 * c + r.val
    rw [hc]; omega
  rw [← Equiv.sum_comp (finProdFinEquiv : Fin 4 × Fin 1024 ≃ Fin 4096) g, Fintype.sum_prod_type, Fin.sum_univ_four,
    zero_add, run 0 0 rfl (fun r => by omega), run 1 1 rfl (fun r => by omega), run 2 2 rfl (fun r => by omega),
    run 3 3 rfl (fun r => by omega)]

end Cert.CosAttn

end
-- ==== Proof.KerBlock.lean ====
/-
  One row of the kernel's output block, as a real number. When the entries of the four input blocks of a grid point are
  real numbers — rows `q s`, `k s`, `v s` and mask values `mm s`, `s < 4096` — the four tables the first loop
  finishes with are the sums over all 4096 rows of the masked, scaled keys against the values (`∑ j, (mm j · usc k j e) · v j d`),
  of the masked values, of the masked scaled keys and of the mask, each accumulated onto zero in four runs of 1024 rows;
  and row `1024·j + r` of the output block is the quotient `bNum / bDen` of `½ · (scaled query row · table) + ½ · table`
  by `½ · (scaled query row · table) + ½ · table`, provided the denominator is not zero.
-/
import proofs.«424872_j58093727645857_3_alg».proof.Proof.KerTrips
import proofs.«424872_j58093727645857_3_alg».proof.Proof.KerPayloads
import proofs.«424872_j58093727645857_3_alg».proof.Proof.LibERealSums

set_option maxRecDepth 16384

noncomputable section

open scoped BigOperators
open Idealize.ShloMosaic Idealize.ShloMosaic.ValueIdx

namespace Cert.CosAttn

open Cert.KernelIdeal Cert.KernelIdeal.Gen

variable [Cert.KernelIdeal.Facts]

/-- Trip `j` of either loop, `j < 4`. -/
def tr1 (j : Fin 4) : Fin k0_t1_loop.trips := ⟨j.val, by rw [trips1_eq]; exact j.isLt⟩
def tr2 (j : Fin 4) : Fin k0_t2_loop.trips := ⟨j.val, by rw [trips2_eq]; exact j.isLt⟩

/-- Row `r` of run `j`: row `1024·j + r` of the block. -/
def rowOf (j : Fin 4) (r : Fin 1024) : Fin 4096 := ⟨1024 * j.val + r.val, by omega⟩

section Real

variable (q k v : Fin 4096 → Fin 64 → ℝ) (mm : Fin 4096 → ℝ)

/-- A row's sum of squares, and the row scaled by the reciprocal square root of it floored at `epsR²`. -/
def ssq (x : Fin 4096 → Fin 64 → ℝ) (s : Fin 4096) : ℝ := ∑ e, x s e * x s e
def usc (x : Fin 4096 → Fin 64 → ℝ) (s : Fin 4096) (e : Fin 64) : ℝ :=
  x s e * (Real.sqrt (max (ssq x s) (epsR * epsR)))⁻¹

/-- The quotient's two sides for query row `s`. -/
def bNum (s : Fin 4096) (d : Fin 64) : ℝ :=
  1 / 2 * (∑ e, usc q s e * (∑ j, (mm j * usc k j e) * v j d)) + 1 / 2 * (∑ j, mm j * v j d)
def bDen (s : Fin 4096) : ℝ :=
  1 / 2 * (∑ e, usc q s e * (∑ j, mm j * usc k j e)) + 1 / 2 * (∑ j, mm j)

end Real

namespace Block

/-! ## Rows of a run, read through the trip's rectangle -/

/-- Row `r` of the rows a trip of the first loop loads from a `[1, 4096, 64]` block is the block's row `1024·j + r`. -/
theorem ld_R64 (X : Vec Ideal S1x4096x64 .f32) (j : Fin 4) (r : Fin 1024) (e : Fin 64) :
    View.ld X (R64 (tr1 j)) (ix3 0 r e) = X (ix3 0 (rowOf j r) e) :=
  congrArg X (funext fun a => Fin.ext (by
    match a with
    | ⟨0, _⟩ => show k0_off1 (tr1 j) 0 + 1 * 0 = 0; rw [k0_off1_eq]; rfl
    | ⟨1, _⟩ => show k0_off1 (tr1 j) 1 + 1 * r.val = 1024 * j.val + r.val; rw [k0_off1_eq, Nat.one_mul]; rfl
    | ⟨2, _⟩ => show k0_off1 (tr1 j) 2 + 1 * e.val = e.val; rw [k0_off1_eq, Nat.one_mul]; exact Nat.zero_add _))

/-- The same for the mask's `[1, 4096, 1]` block. -/
theorem ld_R1 (X : Vec Ideal S1x4096x1 .f32) (j : Fin 4) (r : Fin 1024) :
    View.ld X (R1 (tr1 j)) (ix3 0 r 0) = X (ix3 0 (rowOf j r) 0) :=
  congrArg X (funext fun a => Fin.ext (by
    match a with
    | ⟨0, _⟩ => show k0_off2 (tr1 j) 0 + 1 * 0 = 0; rw [k0_off2_eq]; rfl
    | ⟨1, _⟩ => show k0_off2 (tr1 j) 1 + 1 * r.val = 1024 * j.val + r.val; rw [k0_off2_eq, Nat.one_mul]; rfl
    | ⟨2, _⟩ => show k0_off2 (tr1 j) 2 + 1 * 0 = 0; rw [k0_off2_eq]; rfl))

/-- The same for the rows a trip of the second loop loads from the query block. -/
theorem ld_RQ (X : Vec Ideal S1x4096x64 .f32) (j : Fin 4) (r : Fin 1024) (e : Fin 64) :
    View.ld X (RQ (tr2 j)) (ix3 0 r e) = X (ix3 0 (rowOf j r) e) :=
  congrArg X (funext fun a => Fin.ext (by
    match a with
    | ⟨0, _⟩ => show k0_off3 (tr2 j) 0 + 1 * 0 = 0; rw [k0_off3_eq]; rfl
    | ⟨1, _⟩ => show k0_off3 (tr2 j) 1 + 1 * r.val = 1024 * j.val + r.val; rw [k0_off3_eq, Nat.one_mul]; rfl
    | ⟨2, _⟩ => show k0_off3 (tr2 j) 2 + 1 * e.val = e.val; rw [k0_off3_eq, Nat.one_mul]; exact Nat.zero_add _))

/-! ## A scaled row of real numbers -/

/-- When row `r` of a block holds the real numbers `x s ·`, its scaled row is the real scaled row: the sum of squares
    is a real sum, the floor under it is `epsR²`, which is positive, so the reciprocal square root is the real one. -/
theorem scaledRow_coe (xb : Vec Ideal S1x1024x64 .f32) (x : Fin 4096 → Fin 64 → ℝ) (s : Fin 4096) (r : Fin 1024)
    (hx : ∀ e, xb (ix3 0 r e) = ((x s e : ℝ) : EReal)) (e : Fin 64) :
    scaledRow xb r e = ((usc x s e : ℝ) : EReal) := by
  have hsum : (∑ e' : Fin 64, xb (ix3 0 r e') * xb (ix3 0 r e')) = ((ssq x s : ℝ) : EReal) := by
    unfold ssq
    rw [coe_sum]
    exact Finset.sum_congr rfl fun e' _ => by rw [hx e', EReal.coe_mul]
  have hpos : 0 < max (ssq x s) (epsR * epsR) := lt_max_of_lt_right (mul_pos epsR_pos epsR_pos)
  have hmax : max ((ssq x s : ℝ) : EReal) ((epsR * epsR : ℝ) : EReal) = ((max (ssq x s) (epsR * epsR) : ℝ) : EReal) :=
    (EReal.coe_strictMono.monotone.map_max).symm
  unfold scaledRow usc
  rw [hx e, hsum, epsSqE_eq, hmax, rsqrt_coe_pos hpos, ← EReal.coe_mul]

/-! ## The four tables after the four trips -/

/-- A quantity that starts at zero and gains, trip by trip, the real sum over the trip's run of rows ends, after the four
    trips, at the real sum over all 4096 rows. -/
theorem four_runs_coe (T : ℕ → EReal) (g : Fin 4096 → ℝ) (h0 : T 0 = 0)
    (s0 : T 1 = T 0 + ((∑ r : Fin 1024, g (rowOf 0 r) : ℝ) : EReal))
    (s1 : T 2 = T 1 + ((∑ r : Fin 1024, g (rowOf 1 r) : ℝ) : EReal))
    (s2 : T 3 = T 2 + ((∑ r : Fin 1024, g (rowOf 2 r) : ℝ) : EReal))
    (s3 : T 4 = T 3 + ((∑ r : Fin 1024, g (rowOf 3 r) : ℝ) : EReal)) :
    T 4 = ((∑ s : Fin 4096, g s : ℝ) : EReal) := by
  rw [s3, s2, s1, s0, h0, sum_four_runs g, EReal.coe_add, EReal.coe_add, EReal.coe_add, EReal.coe_add]
  rfl

section Tables

variable (x1 x2 : Vec Ideal S1x4096x64 .f32) (x3 : Vec Ideal S1x4096x1 .f32)
  (k v : Fin 4096 → Fin 64 → ℝ) (mm : Fin 4096 → ℝ)

/-- The tables before the first trip are the zero fills. -/
theorem tabs_zero :
    tabs (F := Ideal) x1 x2 x3 0 = (k0_pay1 (F := Ideal), k0_pay2 (F := Ideal), k0_pay3 (F := Ideal), k0_pay4 (F := Ideal)) := by
  rw [tabs]

/-- One trip's gain of the 64 × 64 table. -/
theorem tab1_step (h1 : ∀ s e, x1 (ix3 0 s e) = ((k s e : ℝ) : EReal)) (h2 : ∀ s e, x2 (ix3 0 s e) = ((v s e : ℝ) : EReal))
    (h3 : ∀ s, x3 (ix3 0 s 0) = ((mm s : ℝ) : EReal)) (j : Fin 4) (e d : Fin 64) :
    (tabs (F := Ideal) x1 x2 x3 (j.val + 1)).1 (ix2 e d)
      = (tabs (F := Ideal) x1 x2 x3 j.val).1 (ix2 e d)
        + ((∑ r : Fin 1024, (mm (rowOf j r) * usc k (rowOf j r) e) * v (rowOf j r) d : ℝ) : EReal) := by
  have t : (tabs (F := Ideal) x1 x2 x3 (j.val + 1)).1
      = k0_pay12 (View.ld x1 (R64 (tr1 j))) (View.ld x2 (R64 (tr1 j))) (View.ld x3 (R1 (tr1 j))) (tabs x1 x2 x3 j.val).1 :=
    congrArg Prod.fst (tabs_succ (F := Ideal) x1 x2 x3 (tr1 j))
  refine (congrFun t _).trans ?_
  refine (pay12_apply _ _ _ _ e d).trans ?_
  refine congrArg (_ + ·) ?_
  rw [coe_sum]
  refine Finset.sum_congr rfl fun r _ => ?_
  rw [EReal.coe_mul, EReal.coe_mul]
  exact congrArg₂ (· * ·)
    (congrArg₂ (· * ·) ((ld_R1 x3 j r).trans (h3 _))
      (scaledRow_coe _ k (rowOf j r) r (fun e' => (ld_R64 x1 j r e').trans (h1 _ e')) e))
    ((ld_R64 x2 j r d).trans (h2 _ d))

/-- One trip's gain of the masked values' column sums. -/
theorem tab2_step (h2 : ∀ s e, x2 (ix3 0 s e) = ((v s e : ℝ) : EReal))
    (h3 : ∀ s, x3 (ix3 0 s 0) = ((mm s : ℝ) : EReal)) (j : Fin 4) (d : Fin 64) :
    (tabs (F := Ideal) x1 x2 x3 (j.val + 1)).2.1 (ix2 0 d)
      = (tabs (F := Ideal) x1 x2 x3 j.val).2.1 (ix2 0 d)
        + ((∑ r : Fin 1024, mm (rowOf j r) * v (rowOf j r) d : ℝ) : EReal) := by
  have t : (tabs (F := Ideal) x1 x2 x3 (j.val + 1)).2.1
      = k0_pay5 (k0_pay13 (View.ld x2 (R64 (tr1 j))) (View.ld x3 (R1 (tr1 j))) (tabs x1 x2 x3 j.val).2.1) :=
    congrArg (fun p => p.2.1) (tabs_succ (F := Ideal) x1 x2 x3 (tr1 j))
  refine (congrFun t _).trans ?_
  refine (pay5_pay13_apply _ _ _ d).trans ?_
  refine congrArg (_ + ·) ?_
  rw [coe_sum]
  refine Finset.sum_congr rfl fun r _ => ?_
  rw [EReal.coe_mul]
  exact congrArg₂ (· * ·) ((ld_R1 x3 j r).trans (h3 _)) ((ld_R64 x2 j r d).trans (h2 _ d))

/-- One trip's gain of the masked scaled keys' column sums. -/
theorem tab3_step (h1 : ∀ s e, x1 (ix3 0 s e) = ((k s e : ℝ) : EReal))
    (h3 : ∀ s, x3 (ix3 0 s 0) = ((mm s : ℝ) : EReal)) (j : Fin 4) (e : Fin 64) :
    (tabs (F := Ideal) x1 x2 x3 (j.val + 1)).2.2.1 (ix2 0 e)
      = (tabs (F := Ideal) x1 x2 x3 j.val).2.2.1 (ix2 0 e)
        + ((∑ r : Fin 1024, mm (rowOf j r) * usc k (rowOf j r) e : ℝ) : EReal) := by
  have t : (tabs (F := Ideal) x1 x2 x3 (j.val + 1)).2.2.1
      = k0_pay6 (k0_pay11 (View.ld x1 (R64 (tr1 j))) (View.ld x3 (R1 (tr1 j)))) (tabs x1 x2 x3 j.val).2.2.1 :=
    congrArg (fun p => p.2.2.1) (tabs_succ (F := Ideal) x1 x2 x3 (tr1 j))
  refine (congrFun t _).trans ?_
  refine (pay6_pay11_apply _ _ _ e).trans ?_
  refine congrArg (_ + ·) ?_
  rw [coe_sum]
  refine Finset.sum_congr rfl fun r _ => ?_
  rw [EReal.coe_mul]
  exact congrArg₂ (· * ·) ((ld_R1 x3 j r).trans (h3 _))
    (scaledRow_coe _ k (rowOf j r) r (fun e' => (ld_R64 x1 j r e').trans (h1 _ e')) e)

/-- One trip's gain of the mask's sum. -/
theorem tab4_step (h3 : ∀ s, x3 (ix3 0 s 0) = ((mm s : ℝ) : EReal)) (j : Fin 4) :
    (tabs (F := Ideal) x1 x2 x3 (j.val + 1)).2.2.2 (ix2 0 0)
      = (tabs (F := Ideal) x1 x2 x3 j.val).2.2.2 (ix2 0 0) + ((∑ r : Fin 1024, mm (rowOf j r) : ℝ) : EReal) := by
  have t : (tabs (F := Ideal) x1 x2 x3 (j.val + 1)).2.2.2
      = k0_pay7 (k0_pay10 (View.ld x3 (R1 (tr1 j)))) (tabs x1 x2 x3 j.val).2.2.2 :=
    congrArg (fun p => p.2.2.2) (tabs_succ (F := Ideal) x1 x2 x3 (tr1 j))
  refine (congrFun t _).trans ?_
  refine (pay7_pay10_apply _ _).trans ?_
  refine congrArg (_ + ·) ?_
  rw [coe_sum]
  exact Finset.sum_congr rfl fun r _ => (ld_R1 x3 j r).trans (h3 _)

/-- The finished 64 × 64 table: the masked scaled keys against the values, summed over all rows. -/
theorem tab1_eq (h1 : ∀ s e, x1 (ix3 0 s e) = ((k s e : ℝ) : EReal)) (h2 : ∀ s e, x2 (ix3 0 s e) = ((v s e : ℝ) : EReal))
    (h3 : ∀ s, x3 (ix3 0 s 0) = ((mm s : ℝ) : EReal)) (e d : Fin 64) :
    (tabs (F := Ideal) x1 x2 x3 4).1 (ix2 e d) = ((∑ s : Fin 4096, (mm s * usc k s e) * v s d : ℝ) : EReal) :=
  four_runs_coe (fun n => (tabs (F := Ideal) x1 x2 x3 n).1 (ix2 e d)) (fun s => (mm s * usc k s e) * v s d)
    ((congrFun (congrArg Prod.fst (tabs_zero x1 x2 x3)) _).trans (pay1_apply e d))
    (tab1_step x1 x2 x3 k v mm h1 h2 h3 0 e d) (tab1_step x1 x2 x3 k v mm h1 h2 h3 1 e d)
    (tab1_step x1 x2 x3 k v mm h1 h2 h3 2 e d) (tab1_step x1 x2 x3 k v mm h1 h2 h3 3 e d)

/-- The finished masked values' column sums. -/
theorem tab2_eq (h2 : ∀ s e, x2 (ix3 0 s e) = ((v s e : ℝ) : EReal))
    (h3 : ∀ s, x3 (ix3 0 s 0) = ((mm s : ℝ) : EReal)) (d : Fin 64) :
    (tabs (F := Ideal) x1 x2 x3 4).2.1 (ix2 0 d) = ((∑ s : Fin 4096, mm s * v s d : ℝ) : EReal) :=
  four_runs_coe (fun n => (tabs (F := Ideal) x1 x2 x3 n).2.1 (ix2 0 d)) (fun s => mm s * v s d)
    ((congrFun (congrArg (fun p => p.2.1) (tabs_zero x1 x2 x3)) _).trans (pay2_apply d))
    (tab2_step x1 x2 x3 v mm h2 h3 0 d) (tab2_step x1 x2 x3 v mm h2 h3 1 d)
    (tab2_step x1 x2 x3 v mm h2 h3 2 d) (tab2_step x1 x2 x3 v mm h2 h3 3 d)

/-- The finished masked scaled keys' column sums. -/
theorem tab3_eq (h1 : ∀ s e, x1 (ix3 0 s e) = ((k s e : ℝ) : EReal))
    (h3 : ∀ s, x3 (ix3 0 s 0) = ((mm s : ℝ) : EReal)) (e : Fin 64) :
    (tabs (F := Ideal) x1 x2 x3 4).2.2.1 (ix2 0 e) = ((∑ s : Fin 4096, mm s * usc k s e : ℝ) : EReal) :=
  four_runs_coe (fun n => (tabs (F := Ideal) x1 x2 x3 n).2.2.1 (ix2 0 e)) (fun s => mm s * usc k s e)
    ((congrFun (congrArg (fun p => p.2.2.1) (tabs_zero x1 x2 x3)) _).trans (pay3_apply e))
    (tab3_step x1 x2 x3 k mm h1 h3 0 e) (tab3_step x1 x2 x3 k mm h1 h3 1 e)
    (tab3_step x1 x2 x3 k mm h1 h3 2 e) (tab3_step x1 x2 x3 k mm h1 h3 3 e)

/-- The finished sum of the mask. -/
theorem tab4_eq (h3 : ∀ s, x3 (ix3 0 s 0) = ((mm s : ℝ) : EReal)) :
    (tabs (F := Ideal) x1 x2 x3 4).2.2.2 (ix2 0 0) = ((∑ s : Fin 4096, mm s : ℝ) : EReal) :=
  four_runs_coe (fun n => (tabs (F := Ideal) x1 x2 x3 n).2.2.2 (ix2 0 0)) (fun s => mm s)
    ((congrFun (congrArg (fun p => p.2.2.2) (tabs_zero x1 x2 x3)) _).trans pay4_apply)
    (tab4_step x1 x2 x3 mm h3 0) (tab4_step x1 x2 x3 mm h3 1)
    (tab4_step x1 x2 x3 mm h3 2) (tab4_step x1 x2 x3 mm h3 3)

end Tables

end Block

open Block

/-- THE ROW: over input blocks whose entries are real numbers, row `1024·j + r`, lane `d` of what the second loop's
    trip `j` stores is `bNum / bDen` at that row, when `bDen` there is not zero. -/
theorem block_value (x0 x1 x2 : Vec Ideal S1x4096x64 .f32) (x3 : Vec Ideal S1x4096x1 .f32)
    (q k v : Fin 4096 → Fin 64 → ℝ) (mm : Fin 4096 → ℝ)
    (h0 : ∀ s e, x0 (ix3 0 s e) = ((q s e : ℝ) : EReal)) (h1 : ∀ s e, x1 (ix3 0 s e) = ((k s e : ℝ) : EReal))
    (h2 : ∀ s e, x2 (ix3 0 s e) = ((v s e : ℝ) : EReal)) (h3 : ∀ s, x3 (ix3 0 s 0) = ((mm s : ℝ) : EReal))
    (j : Fin 4) (r : Fin 1024) (d : Fin 64) (hden : bDen q k mm (rowOf j r) ≠ 0) :
    k0_pay8 (F := Ideal) (tabs (F := Ideal) x1 x2 x3 4).1 (tabs (F := Ideal) x1 x2 x3 4).2.1
        (tabs (F := Ideal) x1 x2 x3 4).2.2.1 (tabs (F := Ideal) x1 x2 x3 4).2.2.2 (View.ld x0 (RQ (tr2 j))) (ix3 0 r d)
      = ((bNum q k v mm (rowOf j r) d / bDen q k mm (rowOf j r) : ℝ) : EReal) := by
  have hq : ∀ e : Fin 64, scaledRow (View.ld x0 (RQ (tr2 j))) r e = ((usc q (rowOf j r) e : ℝ) : EReal) := fun e =>
    scaledRow_coe _ q (rowOf j r) r (fun e' => (ld_RQ x0 j r e').trans (h0 _ e')) e
  have hN : halfE * (∑ e : Fin 64, scaledRow (View.ld x0 (RQ (tr2 j))) r e * (tabs (F := Ideal) x1 x2 x3 4).1 (ix2 e d))
        + halfE * (tabs (F := Ideal) x1 x2 x3 4).2.1 (ix2 0 d)
      = ((bNum q k v mm (rowOf j r) d : ℝ) : EReal) := by
    unfold bNum
    rw [EReal.coe_add, EReal.coe_mul, EReal.coe_mul, coe_sum, halfE_eq]
    refine congrArg₂ (· + ·) (congrArg (_ * ·) (Finset.sum_congr rfl fun e _ => ?_))
      (congrArg (_ * ·) (tab2_eq x1 x2 x3 v mm h2 h3 d))
    rw [EReal.coe_mul]
    exact congrArg₂ (· * ·) (hq e) (tab1_eq x1 x2 x3 k v mm h1 h2 h3 e d)
  have hD : halfE * (∑ e : Fin 64, scaledRow (View.ld x0 (RQ (tr2 j))) r e * (tabs (F := Ideal) x1 x2 x3 4).2.2.1 (ix2 0 e))
        + halfE * (tabs (F := Ideal) x1 x2 x3 4).2.2.2 (ix2 0 0)
      = ((bDen q k mm (rowOf j r) : ℝ) : EReal) := by
    unfold bDen
    rw [EReal.coe_add, EReal.coe_mul, EReal.coe_mul, coe_sum, halfE_eq]
    refine congrArg₂ (· + ·) (congrArg (_ * ·) (Finset.sum_congr rfl fun e _ => ?_))
      (congrArg (_ * ·) (tab4_eq x1 x2 x3 mm h3))
    rw [EReal.coe_mul]
    exact congrArg₂ (· * ·) (hq e) (tab3_eq x1 x2 x3 k mm h1 h3 e)
  refine (pay8_apply _ _ _ _ _ r d).trans ?_
  rw [hN, hD]
  exact div_coe_coe _ hden

end Cert.CosAttn

end
-- ==== Proof.KerPipe.lean ====
/-
  The pipeline around the kernel body, read as values at the ideal instance. Grid point `8·b + h` stages row block
  `(b, h)` of each reshaped argument array — the query, key and value arrays re-laid [2,8,4096,64] → [16,4096,64], the
  mask converted to floats and repeated over the heads, [2,1,1,4096] → [16,4096,1] — and writes its output block back to
  rows `(b, h)` of the result, which the last host operation re-lays [16,4096,64] → [2,8,4096,64]. So whatever function of
  `(b, h, s, d)` the body leaves in its output block at every point is what the program's result array holds, and the
  argument arrays end as they were.
-/
import proofs.«424872_j58093727645857_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.CosAttn

open Cert.KernelIdeal Cert.KernelIdeal.Gen

/-! ## The windows' blocks as rows of the argument arrays

Every window's index map sends point `t` to block `(t, 0, 0)`; the arrays the windows stage are the arguments re-laid
row-major, so row `s`, lane `e` of block `t = 8·b + h` is entry `(b, h, s, e)` of the argument. -/

section Blocks

variable (m : (ℓ : Loc nD τ sig) → Buf (Elt Ideal) ℓ) (ρ : Dev nD → PrngReg)

/-- The printed index maps, decided over the grid: every window's block at point `t` is block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The array the query window stages: the query argument re-laid [2,8,4096,64] → [16,4096,64]. -/
theorem host_q (c : Dev nD) : (V m c main_v0 : S16x4096x64.Idx → EReal)
    = shapeCast S16x4096x64 (m ((c : Thread nD τ).loc main_arg0) : S2x8x4096x64.Idx → EReal) shapeCasts_S2x8x4096x64_S16x4096x64 := by
  show StableHlo.after hostOps0 (fun b => m (c, b)) (Proc.devRef .tc main_v0) = _
  after_results
  rfl

/-- The key window's array, likewise. -/
theorem host_k (c : Dev nD) : (V m c main_v1 : S16x4096x64.Idx → EReal)
    = shapeCast S16x4096x64 (m ((c : Thread nD τ).loc main_arg1) : S2x8x4096x64.Idx → EReal) shapeCasts_S2x8x4096x64_S16x4096x64 := by
  show StableHlo.after hostOps0 (fun b => m (c, b)) (Proc.devRef .tc main_v1) = _
  after_results
  rfl

/-- The value window's array, likewise. -/
theorem host_v (c : Dev nD) : (V m c main_v2 : S16x4096x64.Idx → EReal)
    = shapeCast S16x4096x64 (m ((c : Thread nD τ).loc main_arg2) : S2x8x4096x64.Idx → EReal) shapeCasts_S2x8x4096x64_S16x4096x64 := by
  show StableHlo.after hostOps0 (fun b => m (c, b)) (Proc.devRef .tc main_v2) = _
  after_results
  rfl

/-- The array the mask window stages: the mask words re-laid [2,1,1,4096] → [2,4096], converted to floats, repeated
    over a unit axis and then over the eight heads, and re-laid [2,8,4096] → [16,4096,1]. -/
theorem host_m (c : Dev nD) : (V m c main_v7 : S16x4096x1.Idx → EReal)
    = shapeCast S16x4096x1 (broadcastInDim S2x8x4096 ![0, 1, 2] bcast_S2x1x4096_S2x8x4096_0_1_2
        (broadcastInDim S2x1x4096 ![0, 2] bcast_S2x4096_S2x1x4096_0_2
          (sitofp (F := Ideal) .f32 (shapeCast S2x4096 (m ((c : Thread nD τ).loc main_arg3) : S2x1x1x4096.Idx → BitVec 32) shapeCasts_S2x1x1x4096_S2x4096))))
        shapeCasts_S2x8x4096_S16x4096x1 := by
  show StableHlo.after hostOps0 (fun b => m (c, b)) (Proc.devRef .tc main_v7) = _
  after_results
  rfl

/-- The query window's block at the point numbered `8·b + h`, read at row `s`, lane `e`. -/
theorem qblk_at (c : Dev nD) (t : Fin cfg0.N) (b : Fin 2) (h : Fin 8) (s : Fin 4096) (e : Fin 64) (ht : t.val = 8 * b.val + h.val) :
    (iblk m c 0 t : Vec Ideal S1x4096x64 .f32) (ix3 0 s e)
      = (m ((c : Thread nD τ).loc main_arg0) : S2x8x4096x64.Idx → EReal) (ix4 b h s e) := by
  obtain ⟨e0, e1, e2, -⟩ := idx_facts t
  unfold iblk
  rw [View.read_apply]
  show (V m c main_v0 : S16x4096x64.Idx → EReal) (((cfg0.win 0).blk t).view.emb (ix3 0 s e)) = _
  rw [host_q]
  refine shapeCast_apply _ _ _ (ix4 b h s e) ?_
  rw [Shape.rowMajor_val_four, Shape.rowMajor_val_three]
  show ((b.val * 8 + h.val) * 4096 + s.val) * 64 + e.val
    = ((win0_0.index t (0 : Fin 3) * 1 + 1 * 0) * 4096 + (win0_0.index t (1 : Fin 3) * 4096 + 1 * s.val)) * 64 + (win0_0.index t (2 : Fin 3) * 64 + 1 * e.val)
  omega

/-- The key window's. -/
theorem kblk_at (c : Dev nD) (t : Fin cfg0.N) (b : Fin 2) (h : Fin 8) (s : Fin 4096) (e : Fin 64) (ht : t.val = 8 * b.val + h.val) :
    (iblk m c 1 t : Vec Ideal S1x4096x64 .f32) (ix3 0 s e)
      = (m ((c : Thread nD τ).loc main_arg1) : S2x8x4096x64.Idx → EReal) (ix4 b h s e) := by
  obtain ⟨-, -, -, e0, e1, e2, -⟩ := idx_facts t
  unfold iblk
  rw [View.read_apply]
  show (V m c main_v1 : S16x4096x64.Idx → EReal) (((cfg0.win 1).blk t).view.emb (ix3 0 s e)) = _
  rw [host_k]
  refine shapeCast_apply _ _ _ (ix4 b h s e) ?_
  rw [Shape.rowMajor_val_four, Shape.rowMajor_val_three]
  show ((b.val * 8 + h.val) * 4096 + s.val) * 64 + e.val
    = ((win0_1.index t (0 : Fin 3) * 1 + 1 * 0) * 4096 + (win0_1.index t (1 : Fin 3) * 4096 + 1 * s.val)) * 64 + (win0_1.index t (2 : Fin 3) * 64 + 1 * e.val)
  omega

/-- The value window's. -/
theorem vblk_at (c : Dev nD) (t : Fin cfg0.N) (b : Fin 2) (h : Fin 8) (s : Fin 4096) (e : Fin 64) (ht : t.val = 8 * b.val + h.val) :
    (iblk m c 2 t : Vec Ideal S1x4096x64 .f32) (ix3 0 s e)
      = (m ((c : Thread nD τ).loc main_arg2) : S2x8x4096x64.Idx → EReal) (ix4 b h s e) := by
  obtain ⟨-, -, -, -, -, -, e0, e1, e2, -⟩ := idx_facts t
  unfold iblk
  rw [View.read_apply]
  show (V m c main_v2 : S16x4096x64.Idx → EReal) (((cfg0.win 2).blk t).view.emb (ix3 0 s e)) = _
  rw [host_v]
  refine shapeCast_apply _ _ _ (ix4 b h s e) ?_
  rw [Shape.rowMajor_val_four, Shape.rowMajor_val_three]
  show ((b.val * 8 + h.val) * 4096 + s.val) * 64 + e.val
    = ((win0_2.index t (0 : Fin 3) * 1 + 1 * 0) * 4096 + (win0_2.index t (1 : Fin 3) * 4096 + 1 * s.val)) * 64 + (win0_2.index t (2 : Fin 3) * 64 + 1 * e.val)
  omega

/-- The mask window's block: the mask words of batch `b` converted to floats, one per row, whatever the head. -/
theorem mblk_at (c : Dev nD) (t : Fin cfg0.N) (b : Fin 2) (h : Fin 8) (s : Fin 4096) (ht : t.val = 8 * b.val + h.val) :
    (iblk m c 3 t : Vec Ideal S1x4096x1 .f32) (ix3 0 s 0)
      = FloatOps.sitofp (F := Ideal) .f32 ((m ((c : Thread nD τ).loc main_arg3) : S2x1x1x4096.Idx → BitVec 32) (ix4 b 0 0 s)) := by
  obtain ⟨-, -, -, -, -, -, -, -, -, e0, e1, e2, -⟩ := idx_facts t
  unfold iblk
  rw [View.read_apply]
  show (V m c main_v7 : S16x4096x1.Idx → EReal) (((cfg0.win 3).blk t).view.emb (ix3 0 s 0)) = _
  rw [host_m]
  refine (shapeCast_apply _ _ _ (ix3 b h s) ?_).trans ?_
  · rw [Shape.rowMajor_val_three, Shape.rowMajor_val_three]
    show (b.val * 8 + h.val) * 4096 + s.val
      = ((win0_3.index t (0 : Fin 3) * 1 + 1 * 0) * 4096 + (win0_3.index t (1 : Fin 3) * 4096 + 1 * s.val)) * 1 + (win0_3.index t (2 : Fin 3) * 1 + 1 * 0)
    omega
  refine (broadcastInDim_apply _ _ _ (ix3 b h s) (ix3 b 0 s) (fun a => match a with
    | ⟨0, _⟩ => by show b.val = if (2 : Nat) = 1 then 0 else b.val; rw [if_neg (by decide)]
    | ⟨1, _⟩ => by show 0 = if (1 : Nat) = 1 then 0 else h.val; rw [if_pos rfl]
    | ⟨2, _⟩ => by show s.val = if (4096 : Nat) = 1 then 0 else s.val; rw [if_neg (by decide)])).trans ?_
  refine (broadcastInDim_apply _ _ _ (ix3 b (0 : Fin 1) s) (ix2 b s) (fun a => match a with
    | ⟨0, _⟩ => by show b.val = if (2 : Nat) = 1 then 0 else b.val; rw [if_neg (by decide)]
    | ⟨1, _⟩ => by show s.val = if (4096 : Nat) = 1 then 0 else s.val; rw [if_neg (by decide)])).trans ?_
  rw [sitofp_apply]
  refine congrArg _ (shapeCast_apply _ _ _ (ix4 b 0 0 s) ?_)
  rw [Shape.rowMajor_val_four, Shape.rowMajor_val_two]
  show ((b.val * 1 + 0) * 1 + 0) * 4096 + s.val = b.val * 4096 + s.val
  omega

end Blocks

/-! ## From the output blocks to the result array

The output window's block at point `t` is row block `t` of the [16,4096,64] array it writes back to; the sixteen
blocks tile that array, so it ends holding, at row block `8·b + h`, what the body left at point `(b, h)`; the last host
operation re-lays it [16,4096,64] → [2,8,4096,64], which sends row block `8·b + h` to rows `(b, h)`. -/

section Run

variable (m : (ℓ : Loc nD τ sig) → Buf (Elt Ideal) ℓ) (ρ : Dev nD → PrngReg)

/-- The two digits of a row block's number in base eight: the batch and the head. -/
def hi8 (x : Fin 16) : Fin 2 := ⟨x.val / 8, by omega⟩
def lo8 (x : Fin 16) : Fin 8 := ⟨x.val % 8, by omega⟩

theorem hi8_eq (x : Fin 16) (b : Fin 2) (h : Fin 8) (hx : x.val = 8 * b.val + h.val) : hi8 x = b :=
  Fin.ext (by show x.val / 8 = b.val; omega)
theorem lo8_eq (x : Fin 16) (b : Fin 2) (h : Fin 8) (hx : x.val = 8 * b.val + h.val) : lo8 x = h :=
  Fin.ext (by show x.val % 8 = h.val; omega)

/-- The [16,4096,64] array whose row block `8·b + h` is `Gb c b h`. -/
def rows (Gb : Dev nD → Fin 2 → Fin 8 → Fin 4096 → Fin 64 → EReal) (c : Dev nD) : S16x4096x64.Idx → EReal :=
  fun j => Gb c (hi8 (j 0)) (lo8 (j 0)) (j 1) (j 2)

theorem rows_at (Gb : Dev nD → Fin 2 → Fin 8 → Fin 4096 → Fin 64 → EReal) (c : Dev nD) (j : S16x4096x64.Idx)
    (b : Fin 2) (h : Fin 8) (s : Fin 4096) (d : Fin 64)
    (h0 : (j 0).val = 8 * b.val + h.val) (h1 : (j 1).val = s.val) (h2 : (j 2).val = d.val) :
    rows Gb c j = Gb c b h s d :=
  congr (congr (congr (congrArg (Gb c) (hi8_eq (j 0) b h h0)) (lo8_eq (j 0) b h h0)) (Fin.ext h1)) (Fin.ext h2)

/-- What point `t` writes back is row block `t` of `rows Gb`, when the body leaves `Gb c b h` in the output block at
    the point numbered `8·b + h`. -/
theorem oblk_flushed (Gb : Dev nD → Fin 2 → Fin 8 → Fin 4096 → Fin 64 → EReal)
    (hout : ∀ (c : Dev nD) (t : Fin cfg0.N) (b : Fin 2) (h : Fin 8) (s : Fin 4096) (d : Fin 64), t.val = 8 * b.val + h.val →
      (outsAt0 m c t : Vec Ideal S1x4096x64 .f32) (ix3 0 s d) = Gb c b h s d)
    (c : Dev nD) (t : Fin cfg0.N) :
    (dats m 0 c).flushed 4 t = ((cfg0.win 4).blk t).view.read (Elt Ideal) (rows Gb c) := by
  show (cfg0.win 4).cut (grid0.coords t) ((dats m 0 c).after 4 t) = _
  rw [after0_4]
  obtain ⟨-, -, -, -, -, -, -, -, -, -, -, -, e0, e1, e2⟩ := idx_facts t
  have htlt : t.val < 16 := Nat.lt_of_lt_of_eq t.isLt N_0
  refine funext fun (y : S1x4096x64.Idx) => ?_
  obtain ⟨u, s, d, rfl⟩ : ∃ (u : Fin 1) (s : Fin 4096) (d : Fin 64), y = ix3 u s d := ⟨y 0, y 1, y 2, eq_ix3 y⟩
  obtain rfl : u = 0 := Fin.ext (by omega)
  rw [View.read_apply]
  show (outsAt0 m c t : Vec Ideal S1x4096x64 .f32) (ix3 0 s d) = rows Gb c (((cfg0.win 4).blk t).view.emb (ix3 0 s d))
  rw [hout c t ⟨t.val / 8, by omega⟩ ⟨t.val % 8, by omega⟩ s d (by show t.val = 8 * (t.val / 8) + t.val % 8; omega)]
  refine (rows_at Gb c _ _ _ s d ?_ ?_ ?_).symm
  · show win0_4.index t (0 : Fin 3) * 1 + 1 * 0 = 8 * (t.val / 8) + t.val % 8
    omega
  · show win0_4.index t (1 : Fin 3) * 4096 + 1 * s.val = s.val
    omega
  · show win0_4.index t (2 : Fin 3) * 64 + 1 * d.val = d.val
    omega

/-- An index of the [16,4096,64] array is in point `t`'s output block iff each coordinate is in the block's range. -/
theorem mem_oblk (t : Fin cfg0.N) (i : S16x4096x64.Idx) :
    i ∈ ((cfg0.win 4).blk t).view.set ↔ ∀ a : Fin 3, win0_4.index t a * S1x4096x64.size a ≤ (i a).val
      ∧ (i a).val < win0_4.index t a * S1x4096x64.size a + S1x4096x64.size a := by
  show i ∈ ((View.whole main_v8).slice (win0_4.rect t)).set ↔ _
  rw [View.set_slice_whole, Rect.mem_set_unit]
  exact Iff.rfl

/-- The sixteen output blocks tile the array: it ends holding `rows Gb`. -/
theorem rows_final (Gb : Dev nD → Fin 2 → Fin 8 → Fin 4096 → Fin 64 → EReal)
    (hout : ∀ (c : Dev nD) (t : Fin cfg0.N) (b : Fin 2) (h : Fin 8) (s : Fin 4096) (d : Fin 64), t.val = 8 * b.val + h.val →
      (outsAt0 m c t : Vec Ideal S1x4096x64 .f32) (ix3 0 s d) = Gb c b h s d)
    (c : Dev nD) : (dats m 0 c).arrAt 4 cfg0.N = rows Gb c :=
  (dats m 0 c).arrAt_eq_of_cover 4 (rows Gb c) (fun t _ => oblk_flushed m Gb hout c t) (fun (i : S16x4096x64.Idx) => by
    have hi0 : (i 0).val < 16 := (i 0).isLt
    have hi1 : (i 1).val < 4096 := (i 1).isLt
    have hi2 : (i 2).val < 64 := (i 2).isLt
    obtain ⟨-, -, -, -, -, -, -, -, -, -, -, -, e0, e1, e2⟩ := idx_facts ⟨(i 0).val, Nat.lt_of_lt_of_eq hi0 N_0.symm⟩
    have e0' : win0_4.index ⟨(i 0).val, Nat.lt_of_lt_of_eq hi0 N_0.symm⟩ (0 : Fin 3) = (i 0).val := e0
    refine ⟨⟨(i 0).val, Nat.lt_of_lt_of_eq hi0 N_0.symm⟩, flush0_4 _, ?_⟩
    rw [mem_oblk]
    intro a
    match a with
    | ⟨0, _⟩ =>
      show win0_4.index _ (0 : Fin 3) * 1 ≤ (i 0).val ∧ (i 0).val < win0_4.index _ (0 : Fin 3) * 1 + 1
      omega
    | ⟨1, _⟩ =>
      show win0_4.index _ (1 : Fin 3) * 4096 ≤ (i 1).val ∧ (i 1).val < win0_4.index _ (1 : Fin 3) * 4096 + 4096
      omega
    | ⟨2, _⟩ =>
      show win0_4.index _ (2 : Fin 3) * 64 ≤ (i 2).val ∧ (i 2).val < win0_4.index _ (2 : Fin 3) * 64 + 64
      omega)

/-- The result array: the last host operation's re-laying of `rows Gb`. -/
theorem result_eq (Gb : Dev nD → Fin 2 → Fin 8 → Fin 4096 → Fin 64 → EReal)
    (hout : ∀ (c : Dev nD) (t : Fin cfg0.N) (b : Fin 2) (h : Fin 8) (s : Fin 4096) (d : Fin 64), t.val = 8 * b.val + h.val →
      (outsAt0 m c t : Vec Ideal S1x4096x64 .f32) (ix3 0 s d) = Gb c b h s d)
    (c : Dev nD) :
    (Pipeline.afterTail₀ cfgs (dats m) 0 (V0 m) [hostOps1] c main_v9 : S2x8x4096x64.Idx → EReal)
      = fun i : S2x8x4096x64.Idx => Gb c (i 0) (i 1) (i 2) (i 3) := by
  unfold Pipeline.afterTail₀
  show StableHlo.after hostOps1 _ (Proc.devRef .tc main_v9) = _
  after_results
  rw [(Pipeline.withArrays_arr spec0 launch0.win.arr_inj c _ _ 4).trans (rows_final m Gb hout c)]
  refine funext fun (i : S2x8x4096x64.Idx) => ?_
  have hi0 : (i 0).val < 2 := (i 0).isLt
  have hi1 : (i 1).val < 8 := (i 1).isLt
  refine (shapeCast_apply (s := S16x4096x64) (t := S2x8x4096x64) (rows Gb c) shapeCasts_S16x4096x64_S2x8x4096x64 i
    (ix3 (⟨8 * (i 0).val + (i 1).val, by omega⟩ : Fin 16) (i 2) (i 3)) ?_).trans
    (rows_at Gb c _ (i 0) (i 1) (i 2) (i 3) rfl rfl rfl)
  rw [Shape.rowMajor_val_three, Shape.rowMajor_val_four]
  show ((8 * (i 0).val + (i 1).val) * 4096 + (i 2).val) * 64 + (i 3).val
    = (((i 0).val * 8 + (i 1).val) * 4096 + (i 2).val) * 64 + (i 3).val
  omega

/-- The run's post read at the result and at the four arguments. -/
theorem run_of_rows (Gb : Dev nD → Fin 2 → Fin 8 → Fin 4096 → Fin 64 → EReal)
    (hout : ∀ (c : Dev nD) (t : Fin cfg0.N) (b : Fin 2) (h : Fin 8) (s : Fin 4096) (d : Fin 64), t.val = 8 * b.val + h.val →
      (outsAt0 m c t : Vec Ideal S1x4096x64 .f32) (ix3 0 s d) = Gb c b h s d) :
    θ_run defs (onTc (τ := τ) (main (F := Ideal))) ⟨m, fun _ => 0, ρ⟩ fun r => ∀ c : Dev nD,
      r.2.mem ((c : Thread nD τ).loc main_v9) = (fun i : S2x8x4096x64.Idx => Gb c (i 0) (i 1) (i 2) (i 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v9 (Pipeline.mem_restRefs_of main_v9 (by decide) (by decide))).trans (result_eq m Gb hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Run

variable [Cert.KernelIdeal.Facts]
variable (m : (ℓ : Loc nD τ sig) → Buf (Elt Ideal) ℓ) (ρ : Dev nD → PrngReg)

/-- The grid point that handles batch `b`, head `h`. -/
def pt (b : Fin 2) (h : Fin 8) : Fin cfg0.N := ⟨8 * b.val + h.val, by rw [show cfg0.N = 16 from N_0]; omega⟩

/-- The four input windows' blocks at a point, at their literal types. -/
abbrev qblk (c : Dev nD) (t : Fin cfg0.N) : Vec Ideal S1x4096x64 .f32 := iblk m c 0 t
abbrev kblk (c : Dev nD) (t : Fin cfg0.N) : Vec Ideal S1x4096x64 .f32 := iblk m c 1 t
abbrev vblk (c : Dev nD) (t : Fin cfg0.N) : Vec Ideal S1x4096x64 .f32 := iblk m c 2 t
abbrev mblk (c : Dev nD) (t : Fin cfg0.N) : Vec Ideal S1x4096x1 .f32 := iblk m c 3 t

/-- The output window's block after the body at a point, at its literal type. -/
abbrev oblk (c : Dev nD) (t : Fin cfg0.N) : Vec Ideal S1x4096x64 .f32 := outsAt0 m c t

/-- The argument arrays as launched, at their literal types. -/
abbrev argQ (c : Dev nD) : S2x8x4096x64.Idx → EReal := m ((c : Thread nD τ).loc main_arg0)
abbrev argK (c : Dev nD) : S2x8x4096x64.Idx → EReal := m ((c : Thread nD τ).loc main_arg1)
abbrev argV (c : Dev nD) : S2x8x4096x64.Idx → EReal := m ((c : Thread nD τ).loc main_arg2)
abbrev argM (c : Dev nD) : S2x1x1x4096.Idx → BitVec 32 := m ((c : Thread nD τ).loc main_arg3)

/-- Point `(b, h)`'s query block is rows `(b, h)` of the query array; likewise the key and value blocks. -/
theorem qblk_apply (c : Dev nD) (b : Fin 2) (h : Fin 8) (s : Fin 4096) (e : Fin 64) :
    qblk m c (pt b h) (ix3 0 s e) = argQ m c (ix4 b h s e) :=
  qblk_at m c (pt b h) b h s e rfl
theorem kblk_apply (c : Dev nD) (b : Fin 2) (h : Fin 8) (s : Fin 4096) (e : Fin 64) :
    kblk m c (pt b h) (ix3 0 s e) = argK m c (ix4 b h s e) :=
  kblk_at m c (pt b h) b h s e rfl
theorem vblk_apply (c : Dev nD) (b : Fin 2) (h : Fin 8) (s : Fin 4096) (e : Fin 64) :
    vblk m c (pt b h) (ix3 0 s e) = argV m c (ix4 b h s e) :=
  vblk_at m c (pt b h) b h s e rfl

/-- Point `(b, h)`'s mask block is batch `b`'s mask words, each converted to the number it denotes. -/
theorem mblk_apply (c : Dev nD) (b : Fin 2) (h : Fin 8) (s : Fin 4096) :
    mblk m c (pt b h) (ix3 0 s 0) = FloatOps.sitofp (F := Ideal) .f32 (argM m c (ix4 b 0 0 s)) :=
  mblk_at m c (pt b h) b h s rfl

/-- The run, read: if at every point `(b, h)` the body leaves `Gb c b h s d` at row `s`, lane `d` of its output block,
    then every weakly fair execution of the program ends with the result array at `Gb` and the argument arrays unchanged. -/
theorem kernel_run_of_blocks (Gb : Dev nD → Fin 2 → Fin 8 → Fin 4096 → Fin 64 → EReal)
    (hout : ∀ (c : Dev nD) (b : Fin 2) (h : Fin 8) (s : Fin 4096) (d : Fin 64), oblk m c (pt b h) (ix3 0 s d) = Gb c b h s d) :
    θ_run defs (onTc (τ := τ) (main (F := Ideal))) ⟨m, fun _ => 0, ρ⟩ fun r => ∀ c : Dev nD,
      r.2.mem ((c : Thread nD τ).loc main_v9) = (fun i : S2x8x4096x64.Idx => Gb c (i 0) (i 1) (i 2) (i 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  run_of_rows m ρ Gb fun c t b h s d ht => by
    obtain rfl : t = pt b h := Fin.ext ht
    exact hout c b h s d

end Cert.CosAttn

end
-- ==== Proof.KerOut.lean ====
/-
  The output block of grid point `(b, h)`, row by row, over the argument arrays: when the entries of the query, key
  and value arrays are real numbers, row `s`, lane `d` of the block the body leaves at point `8·b + h` is the
  quotient `kerNum / kerDen` of the other arrangement of the attention — the tables summed over the keys first —
  provided `kerDen` is not zero there. The point's input blocks are rows `(b, h)` of the arrays (the mask words of
  batch `b` converted to the numbers they denote), the body's loops leave the payload of the finished tables
  at every row, and over real entries that payload is the quotient.
-/
import proofs.«424872_j58093727645857_3_alg».proof.Proof.KerBlock
import proofs.«424872_j58093727645857_3_alg».proof.Proof.KerPipe
import proofs.«424872_j58093727645857_3_alg».proof.Proof.Spec

set_option maxRecDepth 16384

noncomputable section

open scoped BigOperators
open Idealize.ShloMosaic Idealize.ShloMosaic.TcCoe Idealize.ShloMosaic.ValueIdx Idealize.SL.Sem

namespace Cert.CosAttn

open Cert.KernelIdeal Cert.KernelIdeal.Gen

variable [Cert.KernelIdeal.Facts]
variable (m : (ℓ : Loc nD τ sig) → Buf (Elt Ideal) ℓ)

/-- Row `s` lies in run `s / 1024` at place `s % 1024`. -/
def runOf (s : Fin 4096) : Fin 4 := ⟨s.val / 1024, by have := s.isLt; omega⟩
def offOf (s : Fin 4096) : Fin 1024 := ⟨s.val % 1024, Nat.mod_lt _ (by norm_num)⟩

theorem rowOf_runOf (s : Fin 4096) : rowOf (runOf s) (offOf s) = s :=
  Fin.ext (by show 1024 * (s.val / 1024) + s.val % 1024 = s.val; omega)

/-- The block-level quotient over the rows of `(b, h)` is the array-level one. -/
theorem bNum_eq (Q K V : SQ.Idx → EReal) (M : SM.Idx → BitVec 32) (b : Fin 2) (h : Fin 8) (s : Fin 4096) (d : Fin 64) :
    bNum (rl Q b h) (rl K b h) (rl V b h) (mR M b) s d = kerNum Q K V M b h s d := rfl
theorem bDen_eq (Q K : SQ.Idx → EReal) (M : SM.Idx → BitVec 32) (b : Fin 2) (h : Fin 8) (s : Fin 4096) :
    bDen (rl Q b h) (rl K b h) (mR M b) s = kerDen Q K M b h s := rfl

/-- ROW `s`, LANE `d` of the output block at point `(b, h)`. -/
theorem oblk_apply (c : Dev nD) (b : Fin 2) (h : Fin 8) (s : Fin 4096) (d : Fin 64)
    (hQ : ∀ i, argQ m c i ≠ ⊤ ∧ argQ m c i ≠ ⊥) (hK : ∀ i, argK m c i ≠ ⊤ ∧ argK m c i ≠ ⊥)
    (hV : ∀ i, argV m c i ≠ ⊤ ∧ argV m c i ≠ ⊥)
    (hden : kerDen (argQ m c) (argK m c) (argM m c) b h s ≠ 0) :
    oblk m c (pt b h) (ix3 0 s d)
      = ((kerNum (argQ m c) (argK m c) (argV m c) (argM m c) b h s d / kerDen (argQ m c) (argK m c) (argM m c) b h s : ℝ) : EReal) := by
  have e0 : oblk m c (pt b h) (ix3 0 s d)
      = rowVal (tabs (kblk m c (pt b h)) (vblk m c (pt b h)) (mblk m c (pt b h)) 4) (qblk m c (pt b h))
          (yj (ix3 0 s d)) (yr (ix3 0 s d)) (yd (ix3 0 s d)) :=
    out_block (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) scM0_0 (Memref.isWhole_whole _) scM0_1 (Memref.isWhole_whole _) scM0_2 (Memref.isWhole_whole _) scM0_3 (Memref.isWhole_whole _)
      (qblk m c (pt b h)) (kblk m c (pt b h)) (vblk m c (pt b h)) (mblk m c (pt b h)) (ix3 0 s d)
  have hyj : yj (ix3 (0 : Fin 1) s d) = tr2 (runOf s) := Fin.ext rfl
  have hyr : yr (ix3 (0 : Fin 1) s d) = offOf s := Fin.ext rfl
  have hyd : yd (ix3 (0 : Fin 1) s d) = d := Fin.ext rfl
  rw [e0, hyj, hyr, hyd]
  unfold rowVal
  have h0 : ∀ s' e, qblk m c (pt b h) (ix3 0 s' e) = ((rl (argQ m c) b h s' e : ℝ) : EReal) := fun s' e =>
    (qblk_apply m c b h s' e).trans (EReal.coe_toReal (hQ _).1 (hQ _).2).symm
  have h1 : ∀ s' e, kblk m c (pt b h) (ix3 0 s' e) = ((rl (argK m c) b h s' e : ℝ) : EReal) := fun s' e =>
    (kblk_apply m c b h s' e).trans (EReal.coe_toReal (hK _).1 (hK _).2).symm
  have h2 : ∀ s' e, vblk m c (pt b h) (ix3 0 s' e) = ((rl (argV m c) b h s' e : ℝ) : EReal) := fun s' e =>
    (vblk_apply m c b h s' e).trans (EReal.coe_toReal (hV _).1 (hV _).2).symm
  have h3 : ∀ s', mblk m c (pt b h) (ix3 0 s' 0) = ((mR (argM m c) b s' : ℝ) : EReal) := fun s' =>
    (mblk_apply m c b h s').trans (sitofp_coe _)
  have hb := block_value (qblk m c (pt b h)) (kblk m c (pt b h)) (vblk m c (pt b h)) (mblk m c (pt b h))
    (rl (argQ m c) b h) (rl (argK m c) b h) (rl (argV m c) b h) (mR (argM m c) b) h0 h1 h2 h3 (runOf s) (offOf s) d
    (by rw [rowOf_runOf, bDen_eq]; exact hden)
  rw [rowOf_runOf, bNum_eq, bDen_eq] at hb
  exact hb

end Cert.CosAttn

end
-- ==== Proof.Algebra.lean ====
/-
  The two arrangements of sum-normalised cosine attention are one function over the reals, when every mask word is 0 or 1:
  taking the sums over the keys first (`kerNum / kerDen`) gives the weighted sum of the value rows with the weights
  divided by their sum (`out`), and the two denominators are the same number.
-/
import proofs.«424872_j58093727645857_3_alg».proof.Proof.Spec

noncomputable section

open scoped BigOperators
open Idealize.ShloMosaic Idealize.ShloMosaic.ValueIdx

namespace Cert.CosAttn

/-! ## Facts that mention no array -/

/-- Flooring under the root or after it is the same: `√(max a ε²) = max (√a) ε` for `ε ≥ 0` (the root is monotone). -/
theorem sqrt_max_mul_self (a ε : ℝ) (hε : 0 ≤ ε) : Real.sqrt (max a (ε * ε)) = max (Real.sqrt a) ε := by
  rcases le_total a (ε * ε) with h | h
  · have h' : Real.sqrt a ≤ ε := by
      calc Real.sqrt a ≤ Real.sqrt (ε * ε) := Real.sqrt_le_sqrt h
        _ = ε := Real.sqrt_mul_self hε
    rw [max_eq_right h, max_eq_right h', Real.sqrt_mul_self hε]
  · have h' : ε ≤ Real.sqrt a := by
      calc ε = Real.sqrt (ε * ε) := (Real.sqrt_mul_self hε).symm
        _ ≤ Real.sqrt a := Real.sqrt_le_sqrt h
    rw [max_eq_left h, max_eq_left h']

section Exchange

variable {ι κ : Type*} [Fintype ι] [Fintype κ]

/-- The sum over the keys taken inside the sum over the row's entries, or outside it. -/
theorem sum_mul_sum_comm (u : ι → ℝ) (w : κ → ι → ℝ) (m : κ → ℝ) :
    ∑ e, u e * ∑ k, m k * w k e = ∑ k, m k * ∑ e, u e * w k e := by
  simp only [Finset.mul_sum]
  rw [Finset.sum_comm]
  exact Finset.sum_congr rfl fun k _ => Finset.sum_congr rfl fun e _ => by ring

/-- The denominators: half the contracted table plus half the count is the sum of the weights `m · (cos + 1) · ½`. -/
theorem den_exchange (u : ι → ℝ) (w : κ → ι → ℝ) (m : κ → ℝ) :
    1 / 2 * (∑ e, u e * ∑ k, m k * w k e) + 1 / 2 * ∑ k, m k
      = ∑ k, m k * ((∑ e, u e * w k e) + 1) * (1 / 2) := by
  rw [sum_mul_sum_comm, Finset.mul_sum, Finset.mul_sum, ← Finset.sum_add_distrib]
  exact Finset.sum_congr rfl fun k _ => by ring

/-- The numerators: the same exchange with the value entry `v k` as a further factor of key `k`'s term. -/
theorem num_exchange (u : ι → ℝ) (w : κ → ι → ℝ) (m v : κ → ℝ) :
    1 / 2 * (∑ e, u e * ∑ k, (m k * w k e) * v k) + 1 / 2 * ∑ k, m k * v k
      = ∑ k, (m k * ((∑ e, u e * w k e) + 1) * (1 / 2)) * v k := by
  have hx : ∑ e, u e * ∑ k, (m k * w k e) * v k = ∑ k, (m k * v k) * ∑ e, u e * w k e := by
    rw [← sum_mul_sum_comm u w fun k => m k * v k]
    exact Finset.sum_congr rfl fun e _ => by
      congr 1
      exact Finset.sum_congr rfl fun k _ => by ring
  rw [hx, Finset.mul_sum, Finset.mul_sum, ← Finset.sum_add_distrib]
  exact Finset.sum_congr rfl fun k _ => by ring

end Exchange

/-! ## The arrays -/

variable (Q K V : SQ.Idx → EReal) (M : SM.Idx → BitVec 32)

/-- The two scalings of a row agree: `x / max (√ss) ε = x · (√(max ss ε²))⁻¹` for `ε > 0`. -/
theorem unitK_eq_unit (X : SQ.Idx → EReal) (b : Fin 2) (h : Fin 8) (s : Fin 4096) (e : Fin 64) :
    unitK X b h s e = unit X b h s e := by
  unfold unitK unit
  rw [sqrt_max_mul_self _ _ epsR_pos.le, div_eq_mul_inv]

/-- A weight is the mask word's number times `(cos + 1) · ½`: the word 1 leaves the cosine's term as it is, and the
    word 0, which puts `-1` in the cosine's place, gives `(-1 + 1) · ½ = 0`. -/
theorem score_eq_mR_mul (hM : ∀ b k, msk M b k = 0#32 ∨ msk M b k = 1#32) (b : Fin 2) (h : Fin 8) (s k : Fin 4096) :
    score Q K M b h s k = mR M b k * ((∑ e, unit Q b h s e * unit K b h k e) + 1) * (1 / 2) := by
  unfold score mR
  rcases hM b k with h0 | h1
  · have hz : ((0#32 : BitVec 32).toInt : ℝ) = 0 := by norm_num
    rw [h0, if_pos rfl, hz]
    ring
  · have hne : ¬ ((1#32 : BitVec 32) = 0#32) := by decide
    have ho : ((1#32 : BitVec 32).toInt : ℝ) = 1 := by
      have : (1#32 : BitVec 32).toInt = 1 := by decide
      rw [this]; norm_num
    rw [h1, if_neg hne, ho]
    ring

/-- The weights' sum is the denominator of the other arrangement. -/
theorem kerDen_eq_rowsum (hM : ∀ b k, msk M b k = 0#32 ∨ msk M b k = 1#32) (b : Fin 2) (h : Fin 8) (s : Fin 4096) :
    kerDen Q K M b h s = rowsum Q K M b h s := by
  unfold kerDen rowsum c3 nm
  simp only [unitK_eq_unit, score_eq_mR_mul Q K M hM]
  exact den_exchange (fun e => unit Q b h s e) (fun k e => unit K b h k e) (fun k => mR M b k)

/-- The two arrangements give the same result (in ℝ division by zero is zero on both sides, so no hypothesis on the
    denominator is needed here). -/
theorem kerNum_div_kerDen_eq_out (hM : ∀ b k, msk M b k = 0#32 ∨ msk M b k = 1#32) (b : Fin 2) (h : Fin 8)
    (s : Fin 4096) (d : Fin 64) :
    kerNum Q K V M b h s d / kerDen Q K M b h s = out Q K V M b h s d := by
  rw [kerDen_eq_rowsum Q K M hM]
  unfold out
  simp only [div_mul_eq_mul_div]
  rw [← Finset.sum_div]
  congr 1
  unfold kerNum C1 c2
  simp only [unitK_eq_unit, score_eq_mR_mul Q K M hM]
  exact num_exchange (fun e => unit Q b h s e) (fun k e => unit K b h k e) (fun k => mR M b k)
    (fun k => rl V b h k d)

end Cert.CosAttn

end
-- ==== Proof.PreFacts.lean ====
/-
  What the precondition says of the four argument arrays, at the ideal instance: every entry of the query, key and
  value arrays is a real number; every mask word is 0 or 1; and no query row's weights sum to zero, the weights
  spelt as the reference spells them (`preRowsum`: the predicate's own operations, a row scaled by its floored norm,
  the inner products, `-1` selected where the mask word is zero, `(· + 1) / 2`, the sum over the keys).
-/
import proofs.«424872_j58093727645857_3_alg».proof.Pre_finite_inputs
import proofs.«424872_j58093727645857_3_alg».proof.Proof.Spec
import Idealize.ShloMosaic.Lib.ReduceAll
import Idealize.ShloMosaic.Lib.StableHlo.Predicate
import Idealize.ShloMosaic.PureOps.Ideal.Laws

noncomputable section

open scoped BigOperators
open Idealize.ShloMosaic Idealize.ShloMosaic.ValueIdx

namespace Cert.CosAttn

open Cert.Pre_finite_inputs Cert.Pre_finite_inputs.Facts

variable [Cert.Pre_finite_inputs.Facts]

/-- The predicate's row sums of the weights, one per query row, as it computes them from the query, key and mask arrays. -/
def preRowsum (Q K : FVec Ideal S2x8x4096x64 .f32) (M : IVec S2x1x1x4096 32) : FVec Ideal S2x8x4096x1 .f32 :=
  let main_v21 : FVec Ideal S2x8x4096x64 .f32 := mulf Q Q
  let main_cst_7 : FVec Ideal S_ .f32 := constant S_ .f32 0x00000000#32
  let main_v22 : FVec Ideal S2x8x4096 .f32 := (fun x v => Host.reduceAdd x v reducesTo_S2x8x4096x64_S2x8x4096_d3 h_S_) main_v21 main_cst_7
  let main_v23 : FVec Ideal S2x8x4096x1 .f32 := broadcastInDim S2x8x4096x1 ![0, 1, 2] bcast_S2x8x4096_S2x8x4096x1_0_1_2 main_v22
  let main_v24 : FVec Ideal S2x8x4096x1 .f32 := Host.sqrt main_v23
  let main_cst_8 : FVec Ideal S_ .f32 := constant S_ .f32 0x2B8CBCCC#32
  let main_v25 : FVec Ideal S2x8x4096x1 .f32 := broadcastInDim S2x8x4096x1 ![] bcast_S_S2x8x4096x1 main_cst_8
  let main_v26 : FVec Ideal S2x8x4096x1 .f32 := maximumf main_v24 main_v25
  let main_v27 : FVec Ideal S2x8x4096x64 .f32 := broadcastInDim S2x8x4096x64 ![0, 1, 2, 3] bcast_S2x8x4096x1_S2x8x4096x64_0_1_2_3 main_v26
  let main_v28 : FVec Ideal S2x8x4096x64 .f32 := Host.divf Q main_v27
  let main_v29 : FVec Ideal S2x8x4096x64 .f32 := mulf K K
  let main_cst_9 : FVec Ideal S_ .f32 := constant S_ .f32 0x00000000#32
  let main_v30 : FVec Ideal S2x8x4096 .f32 := (fun x v => Host.reduceAdd x v reducesTo_S2x8x4096x64_S2x8x4096_d3 h_S_) main_v29 main_cst_9
  let main_v31 : FVec Ideal S2x8x4096x1 .f32 := broadcastInDim S2x8x4096x1 ![0, 1, 2] bcast_S2x8x4096_S2x8x4096x1_0_1_2 main_v30
  let main_v32 : FVec Ideal S2x8x4096x1 .f32 := Host.sqrt main_v31
  let main_cst_10 : FVec Ideal S_ .f32 := constant S_ .f32 0x2B8CBCCC#32
  let main_v33 : FVec Ideal S2x8x4096x1 .f32 := broadcastInDim S2x8x4096x1 ![] bcast_S_S2x8x4096x1 main_cst_10
  let main_v34 : FVec Ideal S2x8x4096x1 .f32 := maximumf main_v32 main_v33
  let main_v35 : FVec Ideal S2x8x4096x64 .f32 := broadcastInDim S2x8x4096x64 ![0, 1, 2, 3] bcast_S2x8x4096x1_S2x8x4096x64_0_1_2_3 main_v34
  let main_v36 : FVec Ideal S2x8x4096x64 .f32 := Host.divf K main_v35
  let main_v37 : FVec Ideal S2x8x4096x4096 .f32 := (fun l r => Host.dotGeneral dot_S2x8x4096x64_S2x8x4096x64_S2x8x4096x4096_3_3_2_2_01_01 none l r) main_v28 main_v36
  let main_c_11 : IVec S_ 32 := constantI S_ 32 0#32
  let main_v38 : IVec S2x1x1x4096 32 := broadcastInDim S2x1x1x4096 ![] bcast_S_S2x1x1x4096 main_c_11
  let main_v39 : IVec S2x1x1x4096 1 := cmpi .eq M main_v38
  let main_v40 : IVec S2x8x4096x4096 1 := broadcastInDim S2x8x4096x4096 ![0, 1, 2, 3] bcast_S2x1x1x4096_S2x8x4096x4096_0_1_2_3 main_v39
  let main_cst_12 : FVec Ideal S_ .f32 := constant S_ .f32 0xBF800000#32
  let main_v41 : FVec Ideal S2x8x4096x4096 .f32 := broadcastInDim S2x8x4096x4096 ![] bcast_S_S2x8x4096x4096 main_cst_12
  let main_v42 : FVec Ideal S2x8x4096x4096 .f32 := select main_v40 main_v41 main_v37
  let main_cst_13 : FVec Ideal S_ .f32 := constant S_ .f32 0x3F800000#32
  let main_v43 : FVec Ideal S2x8x4096x4096 .f32 := broadcastInDim S2x8x4096x4096 ![] bcast_S_S2x8x4096x4096 main_cst_13
  let main_v44 : FVec Ideal S2x8x4096x4096 .f32 := addf main_v42 main_v43
  let main_cst_14 : FVec Ideal S_ .f32 := constant S_ .f32 0x3F000000#32
  let main_v45 : FVec Ideal S2x8x4096x4096 .f32 := broadcastInDim S2x8x4096x4096 ![] bcast_S_S2x8x4096x4096 main_cst_14
  let main_v46 : FVec Ideal S2x8x4096x4096 .f32 := mulf main_v44 main_v45
  let main_cst_15 : FVec Ideal S_ .f32 := constant S_ .f32 0x00000000#32
  let main_v47 : FVec Ideal S2x8x4096 .f32 := (fun x v => Host.reduceAdd x v reducesTo_S2x8x4096x4096_S2x8x4096_d3 h_S_) main_v46 main_cst_15
  let main_v48 : FVec Ideal S2x8x4096x1 .f32 := broadcastInDim S2x8x4096x1 ![0, 1, 2] bcast_S2x8x4096_S2x8x4096x1_0_1_2 main_v47
  main_v48

namespace PreFacts

/-! ## The five conjuncts, named

The predicate is a conjunction of five "for all entries" statements: one per float array (the entry's absolute
value is below +∞), one for the mask (the word equals 0 or equals 1), one for the row sums (the entry differs from 0).
Each is an and-fold, from 1, of an array of truth values down to a single truth value. -/

/-- The word 0x7F800000 denotes +∞. -/
theorem inf_word : Ideal.ofBits .f32 0x7F800000#32 = (⊤ : EReal) := by simp [Ideal.ofBits, Ideal.ieee]

/-- The scalar shape has exactly one index. -/
instance scalarIdx_subsingleton : Subsingleton S_.Idx := ⟨fun a b => funext fun d => d.elim0⟩

/-- "Every entry of `X` has absolute value below +∞", as the predicate computes it. -/
def finAll (X : FVec Ideal S2x8x4096x64 .f32) : IVec S_ 1 :=
  Host.reduce IntOp.andi
    (cmpf .olt (Host.absf X) (broadcastInDim S2x8x4096x64 ![] bcast_S_S2x8x4096x64 (constant S_ .f32 0x7F800000#32)))
    (constantI S_ 1 1#1) reducesTo_S2x8x4096x64_S_d0_1_2_3 h_S_

/-- "Every mask word equals 0 or equals 1", as the predicate computes it. -/
def maskAll (M : IVec S2x1x1x4096 32) : IVec S_ 1 :=
  Host.reduce IntOp.andi
    (ori (cmpi .eq M (broadcastInDim S2x1x1x4096 ![] bcast_S_S2x1x1x4096 (constantI S_ 32 0#32)))
      (cmpi .eq M (broadcastInDim S2x1x1x4096 ![] bcast_S_S2x1x1x4096 (constantI S_ 32 1#32))))
    (constantI S_ 1 1#1) reducesTo_S2x1x1x4096_S_d0_1_2_3 h_S_

/-- "Every entry of `R` differs from 0", as the predicate computes it. -/
def nzAll (R : FVec Ideal S2x8x4096x1 .f32) : IVec S_ 1 :=
  Host.reduce IntOp.andi
    (cmpf .une R (broadcastInDim S2x8x4096x1 ![] bcast_S_S2x8x4096x1 (constant S_ .f32 0x00000000#32)))
    (constantI S_ 1 1#1) reducesTo_S2x8x4096x1_S_d0_1_2_3 h_S_

/-- An and-fold that came out 1 met only 1s, so `max x (-x) < ⊤` at every entry `x`; both infinities have
    absolute value `⊤`, so `x` is a real. -/
theorem finAll_one (X : FVec Ideal S2x8x4096x64 .f32) (e : finAll X ix0 = 1#1) (i : S2x8x4096x64.Idx) :
    X i ≠ ⊤ ∧ X i ≠ ⊥ := by
  have h1 := Host.reduce_andi_all _ _ _ _ ix0 e i
  simp only [cmpf, Host.absf, broadcastInDim, constant, Ideal.ofBits_def, inf_word, Ideal.cmpf_def, Ideal.hostAbsf_def,
    Ideal.absf_def, Ideal.cmp, StableHlo.Predicate.ofBool_eq_one_iff, decide_eq_true_eq] at h1
  generalize X i = x at h1
  induction x using EReal.rec with
  | bot => simp at h1
  | coe r => exact ⟨EReal.coe_ne_top r, EReal.coe_ne_bot r⟩
  | top => simp at h1

/-- The disjunction of the two word comparisons is 1 exactly when the word is 0 or is 1. -/
theorem maskAll_one (M : IVec S2x1x1x4096 32) (e : maskAll M ix0 = 1#1) (i : S2x1x1x4096.Idx) :
    M i = 0#32 ∨ M i = 1#32 := by
  have h1 := Host.reduce_andi_all _ _ _ _ ix0 e i
  simp only [ori, cmpi, broadcastInDim, constantI, IntOp.ori_eq_one, IntOp.cmpi_eq] at h1
  exact h1

/-- On the extended reals "unordered or not equal" is "not equal", and the zero word denotes 0. -/
theorem nzAll_one (R : FVec Ideal S2x8x4096x1 .f32) (e : nzAll R ix0 = 1#1) (i : S2x8x4096x1.Idx) : R i ≠ 0 := by
  have h1 := Host.reduce_andi_all _ _ _ _ ix0 e i
  simp only [cmpf, broadcastInDim, constant, Ideal.ofBits_def, Ideal.ofBits_zero_f32, Ideal.cmpf_def, Ideal.cmp,
    StableHlo.Predicate.ofBool_eq_one_iff, decide_eq_true_eq] at h1
  exact h1

end PreFacts

open PreFacts

variable (Q K V : FVec Ideal S2x8x4096x64 .f32) (M : IVec S2x1x1x4096 32)

/-- The predicate is the conjunction of the five, nested to the left; its row sums are `preRowsum`. -/
theorem PreFacts.fn_eq_conj : Cert.Pre_finite_inputs.fn (F := Ideal) Q K V M
    = andi (andi (andi (andi (finAll Q) (finAll K)) (finAll V)) (maskAll M)) (nzAll (preRowsum Q K M)) := rfl

/-- A conjunction of truth values is 1 exactly when each is. -/
theorem PreFacts.conj_of_pre (h : Cert.Pre_finite_inputs.fn (F := Ideal) Q K V M = fun _ => 1#1) :
    finAll Q ix0 = 1#1 ∧ finAll K ix0 = 1#1 ∧ finAll V ix0 = 1#1 ∧ maskAll M ix0 = 1#1
      ∧ nzAll (preRowsum Q K M) ix0 = 1#1 := by
  have e := congrFun h ix0
  rw [fn_eq_conj] at e
  simp only [andi, IntOp.andi_eq_one] at e
  obtain ⟨⟨⟨⟨hq, hk⟩, hv⟩, hm⟩, hr⟩ := e
  exact ⟨hq, hk, hv, hm, hr⟩

/-- Under the precondition every entry of the three float arrays is a real number. -/
theorem finite_of_pre (h : Cert.Pre_finite_inputs.fn (F := Ideal) Q K V M = fun _ => 1#1) :
    (∀ i, Q i ≠ ⊤ ∧ Q i ≠ ⊥) ∧ (∀ i, K i ≠ ⊤ ∧ K i ≠ ⊥) ∧ (∀ i, V i ≠ ⊤ ∧ V i ≠ ⊥) := by
  obtain ⟨hq, hk, hv, -, -⟩ := conj_of_pre Q K V M h
  exact ⟨finAll_one Q hq, finAll_one K hk, finAll_one V hv⟩

/-- Under the precondition every mask word is 0 or 1. -/
theorem mask01_of_pre (h : Cert.Pre_finite_inputs.fn (F := Ideal) Q K V M = fun _ => 1#1) :
    ∀ (b : Fin 2) (k : Fin 4096), msk M b k = 0#32 ∨ msk M b k = 1#32 := by
  obtain ⟨-, -, -, hm, -⟩ := conj_of_pre Q K V M h
  exact fun b k => maskAll_one M hm (ix4 b 0 0 k)

/-- Under the precondition no row sum of the weights is zero. -/
theorem preRowsum_ne_zero_of_pre (h : Cert.Pre_finite_inputs.fn (F := Ideal) Q K V M = fun _ => 1#1) :
    ∀ i, preRowsum Q K M i ≠ 0 := by
  obtain ⟨-, -, -, -, hr⟩ := conj_of_pre Q K V M h
  exact nzAll_one (preRowsum Q K M) hr

end Cert.CosAttn

end
-- ==== Proof.RefValue.lean ====
/-
  The reference program's result, read index by index at the ideal instance: when the entries of the query and key
  arrays are real numbers the sum its division divides by is the weights' sum `rowsum`, and when moreover the value
  array's entries are real and no such sum is zero its result array is `G` — a row divided by its floored norm,
  the inner products of the scaled rows, `-1` in their place where the mask word is zero, `(· + 1) / 2`, each weight
  divided by the row's sum, and the weights contracted with the value rows.
-/
import proofs.«424872_j58093727645857_3_alg».proof.Proof.Gen.ReferenceIdeal.Read
import proofs.«424872_j58093727645857_3_alg».proof.Proof.Spec

noncomputable section

open scoped BigOperators
open Idealize.ShloMosaic Idealize.ShloMosaic.ValueIdx

namespace Cert.CosAttn

open Cert.ReferenceIdeal Cert.ReferenceIdeal.Gen

/-! ## Real numbers inside the extended reals: sums, maxima, and the five float words of the program -/

/-- The real sum of finitely many reals, as an extended real, is the sum of the terms as extended reals. -/
theorem coe_finsum {ι : Type} (t : Finset ι) (f : ι → ℝ) :
    ((∑ i ∈ t, f i : ℝ) : EReal) = ∑ i ∈ t, (f i : EReal) := by
  classical
  refine Finset.induction_on t (by simp) fun a t ha ih => ?_
  rw [Finset.sum_insert ha, Finset.sum_insert ha, EReal.coe_add, ih]

/-- The inclusion of the reals is monotone, so it carries a maximum to the maximum. -/
theorem coe_max (x y : ℝ) : ((max x y : ℝ) : EReal) = max (x : EReal) (y : EReal) :=
  EReal.coe_strictMono.monotone.map_max

/-- The floor under the norm: sign 0, exponent 87, fraction 834764, that is 9223372 · 2⁻⁶³ = 2305843 / 2⁶¹. -/
theorem ofBits_eps : Ideal.ofBits .f32 0x2B8CBCCC#32 = ((epsR : ℝ) : EReal) := by
  simp [Ideal.ofBits, Ideal.ieee, -EReal.coe_mul]; norm_num [epsR]

/-- The word of `-1`. -/
theorem ofBits_neg_one : Ideal.ofBits .f32 0xBF800000#32 = ((-1 : ℝ) : EReal) := by
  simp [Ideal.ofBits, Ideal.ieee, -EReal.coe_mul]; norm_num

/-- The word of `1`. -/
theorem ofBits_one : Ideal.ofBits .f32 0x3F800000#32 = ((1 : ℝ) : EReal) := by
  simp [Ideal.ofBits, Ideal.ieee, -EReal.coe_mul]; norm_num

/-- The word of `1/2`. -/
theorem ofBits_half : Ideal.ofBits .f32 0x3F000000#32 = ((1 / 2 : ℝ) : EReal) := by
  simp [Ideal.ofBits, Ideal.ieee, -EReal.coe_mul]; norm_num

/-- A select on "the word is zero" is the `if` on that equation. -/
theorem select_cmpi_zero {α : Type} (m : BitVec 32) (x y : α) :
    Scalar.select (IntOp.cmpi .eq m 0#32) x y = if m = 0#32 then x else y := by
  unfold Scalar.select IntOp.cmpi
  by_cases hm : m = 0#32
  · simp [hm]
  · simp [hm, show (m == 0#32) = false from beq_false_of_ne hm]

variable [Cert.ReferenceIdeal.Facts]
variable (Q K V : (⟨S2x8x4096x64, .f32⟩ : BufTy).Contents (Elt Ideal)) (M : (⟨S2x1x1x4096, .i32⟩ : BufTy).Contents (Elt Ideal))

/-! ## The stages of one array: entries, sum of squares, floored norm, scaled row -/

/-- A finite entry is the real number `rl` reads. -/
theorem entry_eq (X : (⟨S2x8x4096x64, .f32⟩ : BufTy).Contents (Elt Ideal)) (hX : ∀ i, X i ≠ ⊤ ∧ X i ≠ ⊥)
    (b : Fin 2) (h : Fin 8) (s : Fin 4096) (e : Fin 64) : X (ix4 b h s e) = ((rl X b h s e : ℝ) : EReal) :=
  (EReal.coe_toReal (hX _).1 (hX _).2).symm

theorem sumsq_nonneg (X : SQ.Idx → EReal) (b : Fin 2) (h : Fin 8) (s : Fin 4096) : 0 ≤ sumsq X b h s :=
  Finset.sum_nonneg fun e _ => mul_self_nonneg _

/-- The floored norm is positive: the floor is. -/
theorem floor_pos (X : SQ.Idx → EReal) (b : Fin 2) (h : Fin 8) (s : Fin 4096) :
    0 < max (Real.sqrt (sumsq X b h s)) epsR := lt_max_of_lt_right epsR_pos

/-- The reduction over the last axis of the squares is the row's sum of squares. -/
theorem ref_sumsq (X : (⟨S2x8x4096x64, .f32⟩ : BufTy).Contents (Elt Ideal)) (hX : ∀ i, X i ≠ ⊤ ∧ X i ≠ ⊥)
    (b : Fin 2) (h : Fin 8) (s : Fin 4096) :
    Read.val_main_call0_v1 (F := Ideal) X (ix3 b h s) = ((sumsq X b h s : ℝ) : EReal) := by
  have hi : ∀ e : Fin 64, Read.idx_main_call0_v1 (ix3 b h s) e = ix4 b h s e := fun e => funext fun a => Fin.ext (by
    match a with | ⟨0, _⟩ => rfl | ⟨1, _⟩ => rfl | ⟨2, _⟩ => rfl | ⟨3, _⟩ => rfl)
  rw [Read.val_main_call0_v1_apply, Read.val_main_call0_cst_apply, Ideal.ofBits_def, Ideal.ofBits_zero_f32, zero_add,
    sumsq, coe_finsum]
  refine Finset.sum_congr rfl fun e _ => ?_
  rw [Read.val_main_call0_v0_apply, hi, Ideal.mulf_def, entry_eq X hX, ← EReal.coe_mul]

/-- The square root of the sum of squares, floored: the number a row is divided by. -/
theorem ref_norm (X : (⟨S2x8x4096x64, .f32⟩ : BufTy).Contents (Elt Ideal)) (hX : ∀ i, X i ≠ ⊤ ∧ X i ≠ ⊥)
    (b : Fin 2) (h : Fin 8) (s : Fin 4096) :
    Read.val_main_v2 (F := Ideal) X (ix4 b h s (0 : Fin 1)) = ((max (Real.sqrt (sumsq X b h s)) epsR : ℝ) : EReal) := by
  have hi : Read.idx_main_call0_v2 (ix4 b h s (0 : Fin 1)) = ix3 b h s := funext fun a => Fin.ext (by
    match a with | ⟨0, _⟩ => rfl | ⟨1, _⟩ => rfl | ⟨2, _⟩ => rfl)
  rw [Read.val_main_v2_apply, Read.val_main_v0_apply, Read.val_main_call0_v2_apply, hi, ref_sumsq X hX,
    Read.val_main_v1_apply, Read.val_main_cst_apply, Ideal.maximumf_def, Ideal.hostUnary_sqrt_def, Ideal.sqrt_coe,
    if_neg (not_lt.2 (sumsq_nonneg X b h s)), Ideal.ofBits_def, ofBits_eps, ← coe_max]

/-- A row divided by its floored norm. -/
theorem ref_unit (X : (⟨S2x8x4096x64, .f32⟩ : BufTy).Contents (Elt Ideal)) (hX : ∀ i, X i ≠ ⊤ ∧ X i ≠ ⊥)
    (b : Fin 2) (h : Fin 8) (s : Fin 4096) (e : Fin 64) :
    Read.val_main_v4 (F := Ideal) X (ix4 b h s e) = ((unit X b h s e : ℝ) : EReal) := by
  have hi : Read.idx_main_v3 (ix4 b h s e) = ix4 b h s (0 : Fin 1) := funext fun a => Fin.ext (by
    match a with | ⟨0, _⟩ => rfl | ⟨1, _⟩ => rfl | ⟨2, _⟩ => rfl | ⟨3, _⟩ => rfl)
  rw [Read.val_main_v4_apply, Read.val_main_v3_apply, hi, ref_norm X hX, Ideal.hostDivf_def,
    Ideal.div_coe (floor_pos X b h s).ne', entry_eq X hX, ← EReal.coe_mul, unit, mul_one_div]

/-- The key array goes through the same operations as the query array. -/
theorem ref_unit_key (X : (⟨S2x8x4096x64, .f32⟩ : BufTy).Contents (Elt Ideal)) (hX : ∀ i, X i ≠ ⊤ ∧ X i ≠ ⊥)
    (b : Fin 2) (h : Fin 8) (s : Fin 4096) (e : Fin 64) :
    Read.val_main_v9 (F := Ideal) X (ix4 b h s e) = ((unit X b h s e : ℝ) : EReal) :=
  ref_unit X hX b h s e

/-! ## The weights and their sum -/

/-- The inner product of a scaled query row and a scaled key row. -/
theorem ref_dot (hQ : ∀ i, Q i ≠ ⊤ ∧ Q i ≠ ⊥) (hK : ∀ i, K i ≠ ⊤ ∧ K i ≠ ⊥) (b : Fin 2) (h : Fin 8) (s k : Fin 4096) :
    Read.val_main_v10 (F := Ideal) Q K (ix4 b h s k) = ((∑ e, unit Q b h s e * unit K b h k e : ℝ) : EReal) := by
  have hl : ∀ e : Fin 64, Read.lidx_main_v10 (ix4 b h s k) e = ix4 b h s e := fun e => funext fun a => Fin.ext (by
    match a with | ⟨0, _⟩ => rfl | ⟨1, _⟩ => rfl | ⟨2, _⟩ => rfl | ⟨3, _⟩ => rfl)
  have hr : ∀ e : Fin 64, Read.ridx_main_v10 (ix4 b h s k) e = ix4 b h k e := fun e => funext fun a => Fin.ext (by
    match a with | ⟨0, _⟩ => rfl | ⟨1, _⟩ => rfl | ⟨2, _⟩ => rfl | ⟨3, _⟩ => rfl)
  rw [Read.val_main_v10_apply, coe_finsum]
  refine Finset.sum_congr rfl fun e _ => ?_
  rw [hl, hr, ref_unit Q hQ, ref_unit_key K hK, ← EReal.coe_mul]

/-- The weight of a key: the select on the mask word, plus one, halved. -/
theorem ref_score (hQ : ∀ i, Q i ≠ ⊤ ∧ Q i ≠ ⊥) (hK : ∀ i, K i ≠ ⊤ ∧ K i ≠ ⊥) (b : Fin 2) (h : Fin 8) (s k : Fin 4096) :
    Read.val_main_v17 (F := Ideal) Q K M (ix4 b h s k) = ((score Q K M b h s k : ℝ) : EReal) := by
  have hm : Read.idx_main_call2_v0 (ix4 b h s k) = ix4 b (0 : Fin 1) (0 : Fin 1) k := funext fun a => Fin.ext (by
    match a with | ⟨0, _⟩ => rfl | ⟨1, _⟩ => rfl | ⟨2, _⟩ => rfl | ⟨3, _⟩ => rfl)
  rw [Read.val_main_v17_apply, Read.val_main_v15_apply, Read.val_main_v13_apply, Read.val_main_call2_v0_apply, hm,
    Read.val_main_v12_apply, Read.val_main_v11_apply, Read.val_main_c_apply, Read.val_main_call2_v1_apply,
    Read.val_main_cst_1_apply, ref_dot Q K hQ hK, Read.val_main_v14_apply, Read.val_main_cst_2_apply,
    Read.val_main_v16_apply, Read.val_main_cst_3_apply, Ideal.mulf_def, Ideal.addf_def, Ideal.ofBits_def, Ideal.ofBits_def,
    Ideal.ofBits_def, ofBits_neg_one, ofBits_one, ofBits_half, select_cmpi_zero]
  unfold score msk
  split_ifs <;> rw [← EReal.coe_add, ← EReal.coe_mul]

/-- The reference's denominators at a query row: the weights' sum, a real number. -/
theorem ref_rowsum_apply (hQ : ∀ i, Q i ≠ ⊤ ∧ Q i ≠ ⊥) (hK : ∀ i, K i ≠ ⊤ ∧ K i ≠ ⊥) (b : Fin 2) (h : Fin 8) (s : Fin 4096) :
    Cert.ReferenceIdeal.Read.val_main_v19 (F := Ideal) Q K M (ix4 b h s 0) = ((rowsum Q K M b h s : ℝ) : EReal) := by
  have hi : Read.idx_main_v19 (ix4 b h s (0 : Fin 1)) = ix3 b h s := funext fun a => Fin.ext (by
    match a with | ⟨0, _⟩ => rfl | ⟨1, _⟩ => rfl | ⟨2, _⟩ => rfl)
  have hk : ∀ k : Fin 4096, Read.idx_main_v18 (ix3 b h s) k = ix4 b h s k := fun k => funext fun a => Fin.ext (by
    match a with | ⟨0, _⟩ => rfl | ⟨1, _⟩ => rfl | ⟨2, _⟩ => rfl | ⟨3, _⟩ => rfl)
  rw [Read.val_main_v19_apply, hi, Read.val_main_v18_apply, Read.val_main_cst_4_apply, Ideal.ofBits_def,
    Ideal.ofBits_zero_f32, zero_add, rowsum, coe_finsum]
  exact Finset.sum_congr rfl fun k _ => by rw [hk, ref_score Q K M hQ hK]

/-- The reference's result array is `G` of the argument arrays. -/
theorem ref_result_eq_G (hQ : ∀ i, Q i ≠ ⊤ ∧ Q i ≠ ⊥) (hK : ∀ i, K i ≠ ⊤ ∧ K i ≠ ⊥) (hV : ∀ i, V i ≠ ⊤ ∧ V i ≠ ⊥)
    (hden : ∀ (b : Fin 2) (h : Fin 8) (s : Fin 4096), rowsum Q K M b h s ≠ 0) :
    Cert.ReferenceIdeal.Read.val_main_v22 (F := Ideal) Q K V M = G Q K V M := by
  funext i
  obtain ⟨b, h, s, d, rfl⟩ : ∃ (b : Fin 2) (h : Fin 8) (s : Fin 4096) (d : Fin 64), i = ix4 b h s d :=
    ⟨i 0, i 1, i 2, i 3, eq_ix4 i⟩
  have hl : ∀ k : Fin 4096, Read.lidx_main_v22 (ix4 b h s d) k = ix4 b h s k := fun k => funext fun a => Fin.ext (by
    match a with | ⟨0, _⟩ => rfl | ⟨1, _⟩ => rfl | ⟨2, _⟩ => rfl | ⟨3, _⟩ => rfl)
  have hr : ∀ k : Fin 4096, Read.ridx_main_v22 (ix4 b h s d) k = ix4 b h k d := fun k => funext fun a => Fin.ext (by
    match a with | ⟨0, _⟩ => rfl | ⟨1, _⟩ => rfl | ⟨2, _⟩ => rfl | ⟨3, _⟩ => rfl)
  have h20 : ∀ k : Fin 4096, Read.idx_main_v20 (ix4 b h s k) = ix4 b h s (0 : Fin 1) := fun k => funext fun a => Fin.ext (by
    match a with | ⟨0, _⟩ => rfl | ⟨1, _⟩ => rfl | ⟨2, _⟩ => rfl | ⟨3, _⟩ => rfl)
  show _ = ((out Q K V M b h s d : ℝ) : EReal)
  rw [Read.val_main_v22_apply, out, coe_finsum]
  refine Finset.sum_congr rfl fun k _ => ?_
  rw [hl, hr, Read.val_main_v21_apply, Read.val_main_v20_apply, h20, ref_rowsum_apply Q K M hQ hK, ref_score Q K M hQ hK,
    Ideal.hostDivf_def, Ideal.div_coe (hden b h s), entry_eq V hV, ← EReal.coe_mul, ← EReal.coe_mul, mul_one_div]

end Cert.CosAttn

end
-- ==== Proof.PreRef.lean ====
/-
  The precondition's row sums are the reference's: the predicate spells the reference's own operations, so the two
  arrays are one term; and with the entries finite that term, at a query row, is the weights' real sum — which the
  precondition therefore keeps away from zero.
-/
import proofs.«424872_j58093727645857_3_alg».proof.Proof.PreFacts
import proofs.«424872_j58093727645857_3_alg».proof.Proof.RefValue

noncomputable section

open scoped BigOperators
open Idealize.ShloMosaic Idealize.ShloMosaic.ValueIdx

namespace Cert.CosAttn

variable [Cert.Pre_finite_inputs.Facts] [Cert.ReferenceIdeal.Facts]
variable (Q K V : SQ.Idx → EReal) (M : SM.Idx → BitVec 32)

/-- The predicate's row sums and the reference's are the same array. -/
theorem preRowsum_eq_ref : preRowsum Q K M = Cert.ReferenceIdeal.Read.val_main_v19 (F := Ideal) Q K M := by
  rfl

/-- Under the precondition no query row's weights sum to zero, as real numbers. -/
theorem rowsum_ne_zero_of_pre (h : Cert.Pre_finite_inputs.fn (F := Ideal) Q K V M = fun _ => 1#1)
    (b : Fin 2) (h' : Fin 8) (s : Fin 4096) : rowsum Q K M b h' s ≠ 0 := by
  obtain ⟨hQ, hK, -⟩ := finite_of_pre Q K V M h
  have hne := preRowsum_ne_zero_of_pre Q K V M h (ix4 b h' s (0 : Fin 1))
  rw [preRowsum_eq_ref Q K M, ref_rowsum_apply Q K M hQ hK] at hne
  exact fun hx => hne (by rw [hx, EReal.coe_zero])

end Cert.CosAttn

end
-- ==== Proof.lean ====
/-
  Sum-normalised cosine attention, the kernel against its reference, over the extended reals.

  The reference scales every query and key row to at most unit length (a row divided by its norm, the norm floored at
  `ε` = the f32 word 0x2B8CBCCC), takes all inner products, maps them to weights `(cos + 1) / 2` (a key whose mask
  word is zero gets weight 0), divides each query row's weights by their sum and contracts them with the value rows.
  The kernel never forms the weights: per batch and head it sums over the keys first — the masked scaled keys against
  the values (a 64 × 64 table), the masked values, the masked scaled keys, the mask — in four runs of 1024 rows, then
  writes for every query row `(½ · (scaled row · table) + ½ · table) / (½ · (scaled row · table) + ½ · table)`; it scales a
  row by the reciprocal square root of its sum of squares floored at the named constant `eps_sq` = `ε²`.
  The two are one function of the argument arrays where the precondition holds: every entry of the three float arrays
  finite (all sums are then sums of real numbers, where the sums over keys and lanes may be exchanged and the
  division distributed), every mask word 0 or 1 (the word as a factor is then the select on "word = 0"), and no query
  row's weights summing to zero (the two programs divide by the same nonzero number; `√(max ss ε²) = max (√ss) ε`).

  The three frames are the generated ones (the reference's is its generated run with the result dropped);
  `preserves` is the named constant's statement at its two sites; `algebraic` puts the kernel's run — the generated
  frame run read through the loops' pieces, row by row — beside the reference's generated run, read index by index.
-/
import proofs.«424872_j58093727645857_3_alg».proof.Defs
import proofs.«424872_j58093727645857_3_alg».proof.Proof.Gen.Kernel
import proofs.«424872_j58093727645857_3_alg».proof.Proof.Gen.Kernel.Skeleton
import proofs.«424872_j58093727645857_3_alg».proof.Proof.Gen.Kernel.Loops
import proofs.«424872_j58093727645857_3_alg».proof.Proof.Gen.Kernel.Launch
import proofs.«424872_j58093727645857_3_alg».proof.Proof.Gen.Kernel.Points
import proofs.«424872_j58093727645857_3_alg».proof.Proof.Gen.Kernel.Frame
import proofs.«424872_j58093727645857_3_alg».proof.Proof.Gen.KernelIdeal
import proofs.«424872_j58093727645857_3_alg».proof.Proof.Gen.KernelIdeal.Skeleton
import proofs.«424872_j58093727645857_3_alg».proof.Proof.Gen.KernelIdeal.Loops
import proofs.«424872_j58093727645857_3_alg».proof.Proof.Gen.KernelIdeal.Launch
import proofs.«424872_j58093727645857_3_alg».proof.Proof.Gen.KernelIdeal.Points
import proofs.«424872_j58093727645857_3_alg».proof.Proof.Gen.KernelIdeal.Frame
import proofs.«424872_j58093727645857_3_alg».proof.Proof.Gen.ReferenceIdeal
import proofs.«424872_j58093727645857_3_alg».proof.Proof.Gen.ReferenceIdeal.Run
import proofs.«424872_j58093727645857_3_alg».proof.Proof.Gen.ReferenceIdeal.Read
import proofs.«424872_j58093727645857_3_alg».proof.Proof.Gen.Pre_finite_inputs
import proofs.«424872_j58093727645857_3_alg».proof.Proof.KerOut
import proofs.«424872_j58093727645857_3_alg».proof.Proof.Algebra
import proofs.«424872_j58093727645857_3_alg».proof.Proof.PreRef
import Idealize.ShloMosaic.Adequacy
import Idealize.ShloMosaic.Init

noncomputable section

namespace Cert.Proof

open Idealize.ShloMosaic Idealize.SL.Sem Cert.CosAttn

/-- The three frames: the kernel's two are generated whole; the reference's is its generated run, the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one name, at its two sites: the table gives `eps_sq` the square of the reference's floor. -/
theorem preserves : Cert.preserves_Kernel_KernelIdeal :=
  ⟨IdealRules.named_const.statement Cert.KernelIdeal.κ "eps_sq" .f32 0x179ABE15#32 ((5316911940649 / 5316911983139663491615228241121378304 : ℝ) : EReal) rfl,
    IdealRules.named_const.statement Cert.KernelIdeal.κ "eps_sq" .f32 0x179ABE15#32 ((5316911940649 / 5316911983139663491615228241121378304 : ℝ) : EReal) rfl⟩

/-- Both programs end with the result array at `G` of the argument arrays. -/
theorem algebraic : Cert.algebraic_KernelIdeal_ReferenceIdeal := by
  intro m ρ m' ρ' hpre hagree
  refine ⟨fun c => G (argQ m c) (argK m c) (argV m c) (argM m c), ?_, ?_⟩
  · refine kernel_run_of_blocks m ρ
      (fun c b h s d => ((out (argQ m c) (argK m c) (argV m c) (argM m c) b h s d : ℝ) : EReal)) ?_
    intro c b h s d
    have hp := hpre c
    obtain ⟨hQ, hK, hV⟩ := finite_of_pre (argQ m c) (argK m c) (argV m c) (argM m c) hp
    have hM := mask01_of_pre (argQ m c) (argK m c) (argV m c) (argM m c) hp
    have hrs := rowsum_ne_zero_of_pre (argQ m c) (argK m c) (argV m c) (argM m c) hp b h s
    have hkd : kerDen (argQ m c) (argK m c) (argM m c) b h s ≠ 0 := by
      rw [kerDen_eq_rowsum (argQ m c) (argK m c) (argM m c) hM]; exact hrs
    rw [oblk_apply m c b h s d hQ hK hV hkd, kerNum_div_kerDen_eq_out (argQ m c) (argK m c) (argV m c) (argM m c) hM]
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v22_eq _ _ _ _).trans ?_
    rw [(hagree c).1, (hagree c).2.1, (hagree c).2.2.1, (hagree c).2.2.2]
    have hp := hpre c
    obtain ⟨hQ, hK, hV⟩ := finite_of_pre (argQ m c) (argK m c) (argV m c) (argM m c) hp
    exact ref_result_eq_G (argQ m c) (argK m c) (argV m c) (argM m c) hQ hK hV
      (fun b h s => rowsum_ne_zero_of_pre (argQ m c) (argK m c) (argV m c) (argM m c) hp b h s)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
